-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000 : Shape := ⟨1, ![1000000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_arg7 : FVec F S64x64 .f32) (main_arg8 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S1000000 32) (main_arg2 : IVec S1000000 32) (main_arg3 : FVec F S64x64 .f32) (main_arg4 : FVec F S64 .f32) (main_arg5 : FVec F S64x64 .f32) (main_arg6 : FVec F S64 .f32) (main_arg7 : FVec F S64x64 .f32) (main_arg8 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x64 : Shape := ⟨2, ![100000, 64]⟩
abbrev S1000000 : Shape := ⟨1, ![1000000]⟩
abbrev S64x64 : Shape := ⟨2, ![64, 64]⟩
abbrev S64 : Shape := ⟨1, ![64]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S5000x64 : Shape := ⟨2, ![5000, 64]⟩
abbrev S5000x1 : Shape := ⟨2, ![5000, 1]⟩
abbrev S1000000x64 : Shape := ⟨2, ![1000000, 64]⟩
abbrev S1x64 : Shape := ⟨2, ![1, 64]⟩

abbrev nBuf : Space → Nat
  | .hbm => 82
  | .vmem => 34
  | .smem => 0
  | _ => 0

abbrev bufTy : (tb : Table) → Fin (tcTables nBuf tb) → BufTy
  | .hbm, ⟨0, _⟩ => ⟨S100000x64, .f32⟩
  | .hbm, ⟨1, _⟩ => ⟨S1000000, .i32⟩
  | .hbm, ⟨2, _⟩ => ⟨S1000000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S_, .f32⟩
  | .hbm, ⟨10, _⟩ => ⟨S1000000, .f32⟩
  | .hbm, ⟨11, _⟩ => ⟨S_, .f32⟩
  | .hbm, ⟨12, _⟩ => ⟨S100000, .f32⟩
  | .hbm, ⟨13, _⟩ => ⟨S1000000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1000000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S64x64, .bf16⟩
  | .hbm, ⟨28, _⟩ => ⟨S64x64, .bf16⟩
  | .hbm, ⟨29, _⟩ => ⟨S64x64, .bf16⟩
  | .hbm, ⟨30, _⟩ => ⟨S100000x1, .f32⟩
  | .hbm, ⟨31, _⟩ => ⟨S100000x64, .f32⟩
  | .hbm, ⟨32, _⟩ => ⟨S_, .i32⟩
  | .hbm, ⟨33, _⟩ => ⟨S1000000, .i32⟩
  | .hbm, ⟨34, _⟩ => ⟨S1000000, .i1⟩
  | .hbm, ⟨35, _⟩ => ⟨S_, .i32⟩
  | .hbm, ⟨36, _⟩ => ⟨S1000000, .i32⟩
  | .hbm, ⟨37, _⟩ => ⟨S1000000, .i32⟩
  | .hbm, ⟨38, _⟩ => ⟨S1000000, .i32⟩
  | .hbm, ⟨39, _⟩ => ⟨S1000000x1, .i32⟩
  | .hbm, ⟨40, _⟩ => ⟨S1000000x64, .f32⟩
  | .hbm, ⟨41, _⟩ => ⟨S_, .f32⟩
  | .hbm, ⟨42, _⟩ => ⟨S100000x64, .f32⟩
  | .hbm, ⟨43, _⟩ => ⟨S1000000x1, .i32⟩
  | .hbm, ⟨44, _⟩ => ⟨S100000x64, .f32⟩
  | .hbm, ⟨45, _⟩ => ⟨S1x64, .f32⟩
  | .hbm, ⟨46, _⟩ => ⟨S100000x1, .f32⟩
  | .hbm, ⟨47, _⟩ => ⟨S100000x1, .f32⟩
  | .hbm, ⟨48, _⟩ => ⟨S100000x64, .f32⟩
  | .hbm, ⟨49, _⟩ => ⟨S_, .i32⟩
  | .hbm, ⟨50, _⟩ => ⟨S1000000, .i32⟩
  | .hbm, ⟨51, _⟩ => ⟨S1000000, .i1⟩
  | .hbm, ⟨52, _⟩ => ⟨S_, .i32⟩
  | .hbm, ⟨53, _⟩ => ⟨S1000000, .i32⟩
  | .hbm, ⟨54, _⟩ => ⟨S1000000, .i32⟩
  | .hbm, ⟨55, _⟩ => ⟨S1000000, .i32⟩
  | .hbm, ⟨56, _⟩ => ⟨S1000000x1, .i32⟩
  | .hbm, ⟨57, _⟩ => ⟨S1000000x64, .f32⟩
  | .hbm, ⟨58, _⟩ => ⟨S_, .f32⟩
  | .hbm, ⟨59, _⟩ => ⟨S100000x64, .f32⟩
  | .hbm, ⟨60, _⟩ => ⟨S1000000x1, .i32⟩
  | .hbm, ⟨61, _⟩ => ⟨S100000x64, .f32⟩
  | .hbm, ⟨62, _⟩ => ⟨S1x64, .f32⟩
  | .hbm, ⟨63, _⟩ => ⟨S100000x1, .f32⟩
  | .hbm, ⟨64, _⟩ => ⟨S100000x1, .f32⟩
  | .hbm, ⟨65, _⟩ => ⟨S100000x64, .f32⟩
  | .hbm, ⟨66, _⟩ => ⟨S_, .i32⟩
  | .hbm, ⟨67, _⟩ => ⟨S1000000, .i32⟩
  | .hbm, ⟨68, _⟩ => ⟨S1000000, .i1⟩
  | .hbm, ⟨69, _⟩ => ⟨S_, .i32⟩
  | .hbm, ⟨70, _⟩ => ⟨S1000000, .i32⟩
  | .hbm, ⟨71, _⟩ => ⟨S1000000, .i32⟩
  | .hbm, ⟨72, _⟩ => ⟨S1000000, .i32⟩
  | .hbm, ⟨73, _⟩ => ⟨S1000000x1, .i32⟩
  | .hbm, ⟨74, _⟩ => ⟨S1000000x64, .f32⟩
  | .hbm, ⟨75, _⟩ => ⟨S_, .f32⟩
  | .hbm, ⟨76, _⟩ => ⟨S100000x64, .f32⟩
  | .hbm, ⟨77, _⟩ => ⟨S1000000x1, .i32⟩
  | .hbm, ⟨78, _⟩ => ⟨S100000x64, .f32⟩
  | .hbm, ⟨79, _⟩ => ⟨S1x64, .f32⟩
  | .hbm, ⟨80, _⟩ => ⟨S100000x1, .f32⟩
  | .hbm, ⟨81, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x64, .bf16⟩
  | .local _ .vmem, ⟨9, _⟩ => ⟨S1x64, .f32⟩
  | .local _ .vmem, ⟨10, _⟩ => ⟨S5000x1, .f32⟩
  | .local _ .vmem, ⟨11, _⟩ => ⟨S5000x1, .f32⟩
  | .local _ .vmem, ⟨12, _⟩ => ⟨S5000x1, .f32⟩
  | .local _ .vmem, ⟨13, _⟩ => ⟨S5000x1, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x64, .bf16⟩
  | .local _ .vmem, ⟨19, _⟩ => ⟨S1x64, .f32⟩
  | .local _ .vmem, ⟨20, _⟩ => ⟨S5000x1, .f32⟩
  | .local _ .vmem, ⟨21, _⟩ => ⟨S5000x1, .f32⟩
  | .local _ .vmem, ⟨22, _⟩ => ⟨S5000x1, .f32⟩
  | .local _ .vmem, ⟨23, _⟩ => ⟨S5000x1, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S64x64, .bf16⟩
  | .local _ .vmem, ⟨29, _⟩ => ⟨S1x64, .f32⟩
  | .local _ .vmem, ⟨30, _⟩ => ⟨S5000x1, .f32⟩
  | .local _ .vmem, ⟨31, _⟩ => ⟨S5000x1, .f32⟩
  | .local _ .vmem, ⟨32, _⟩ => ⟨S5000x64, .f32⟩
  | .local _ .vmem, ⟨33, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_9 : Ref sig .tc := ⟨.hbm, 66, rfl⟩
abbrev main_v46 : Ref sig .tc := ⟨.hbm, 67, rfl⟩
abbrev main_v47 : Ref sig .tc := ⟨.hbm, 68, rfl⟩
abbrev main_c_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_11 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg3_1 : Ref sig .tc := ⟨.vmem, 31, rfl⟩
abbrev cc3_stg4_0 : Ref sig .tc := ⟨.vmem, 32, rfl⟩
abbrev cc3_stg4_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem4_1 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem3_1 : DmaSem sig := 31
abbrev cc3_sem4_0 : DmaSem sig := 32
abbrev cc3_sem4_1 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bitsLt_bf16_f32 : FTy.bits .bf16 < FTy.bits .f32
  shapeCasts_S100000_S100000x1 : S100000.ShapeCasts S100000x1
  inb_S5000x64_S5000x64_0_0 : ∀ a, (![0, 0] : Fin 2 → Nat) a + S5000x64.size a ≤ S5000x64.size a
  h_S5000x64 : 0 < S5000x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .bf16 = 32 ∨ (Rect.block (s := S64x64) S64x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .f32 = 32 ∨ (Rect.block (s := S100000x1) S5000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x1.size a ≤ S100000x1.size a
  hwx1_4 : ∀ i : grid1.Coords, EltTy.bits .f32 = 32 ∨ (Rect.block (s := S100000x1) S5000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .bf16 = 32 ∨ (Rect.block (s := S64x64) S64x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S100000x1.size a
  hwx2_3 : ∀ i : grid2.Coords, EltTy.bits .f32 = 32 ∨ (Rect.block (s := S100000x1) S5000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x1.size a ≤ S100000x1.size a
  hwx2_4 : ∀ i : grid2.Coords, EltTy.bits .f32 = 32 ∨ (Rect.block (s := S100000x1) S5000x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .bf16 = 32 ∨ (Rect.block (s := S64x64) S64x64.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x1.size a ≤ S100000x1.size a
  hwx3_3 : ∀ i : grid3.Coords, EltTy.bits .f32 = 32 ∨ (Rect.block (s := S100000x1) S5000x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v27) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v30) S5000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v31) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v41) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v42) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v43) S5000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v44) S5000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v45) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v55) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v56) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S5000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v58) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x64 : Shape := ⟨2, ![100000, 64]⟩
abbrev S1000000 : Shape := ⟨1, ![1000000]⟩
abbrev S64x64 : Shape := ⟨2, ![64, 64]⟩
abbrev S64 : Shape := ⟨1, ![64]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S1000000x64 : Shape := ⟨2, ![1000000, 64]⟩
abbrev S1x64 : Shape := ⟨2, ![1, 64]⟩

abbrev nBuf : Space → Nat
  | .hbm => 104
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1000000, .i32⟩
  | .hbm, ⟨2, _⟩ => ⟨S1000000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S_, .f32⟩
  | .hbm, ⟨10, _⟩ => ⟨S1000000, .f32⟩
  | .hbm, ⟨11, _⟩ => ⟨S_, .f32⟩
  | .hbm, ⟨12, _⟩ => ⟨S100000, .f32⟩
  | .hbm, ⟨13, _⟩ => ⟨S1000000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S1000000, .f32⟩
  | .hbm, ⟨21, _⟩ => ⟨S_, .f32⟩
  | .hbm, ⟨22, _⟩ => ⟨S100000, .f32⟩
  | .hbm, ⟨23, _⟩ => ⟨S1000000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x64, .f32⟩
  | .hbm, ⟨31, _⟩ => ⟨S100000x64, .f32⟩
  | .hbm, ⟨32, _⟩ => ⟨S_, .i32⟩
  | .hbm, ⟨33, _⟩ => ⟨S1000000, .i32⟩
  | .hbm, ⟨34, _⟩ => ⟨S1000000, .i1⟩
  | .hbm, ⟨35, _⟩ => ⟨S_, .i32⟩
  | .hbm, ⟨36, _⟩ => ⟨S1000000, .i32⟩
  | .hbm, ⟨37, _⟩ => ⟨S1000000, .i32⟩
  | .hbm, ⟨38, _⟩ => ⟨S1000000, .i32⟩
  | .hbm, ⟨39, _⟩ => ⟨S1000000x1, .i32⟩
  | .hbm, ⟨40, _⟩ => ⟨S1000000x64, .f32⟩
  | .hbm, ⟨41, _⟩ => ⟨S_, .f32⟩
  | .hbm, ⟨42, _⟩ => ⟨S100000x64, .f32⟩
  | .hbm, ⟨43, _⟩ => ⟨S1000000x1, .i32⟩
  | .hbm, ⟨44, _⟩ => ⟨S100000x64, .f32⟩
  | .hbm, ⟨45, _⟩ => ⟨S100000x1, .f32⟩
  | .hbm, ⟨46, _⟩ => ⟨S100000x64, .f32⟩
  | .hbm, ⟨47, _⟩ => ⟨S100000x64, .f32⟩
  | .hbm, ⟨48, _⟩ => ⟨S100000x64, .f32⟩
  | .hbm, ⟨49, _⟩ => ⟨S1x64, .f32⟩
  | .hbm, ⟨50, _⟩ => ⟨S100000x64, .f32⟩
  | .hbm, ⟨51, _⟩ => ⟨S100000x64, .f32⟩
  | .hbm, ⟨52, _⟩ => ⟨S_, .f32⟩
  | .hbm, ⟨53, _⟩ => ⟨S100000x64, .f32⟩
  | .hbm, ⟨54, _⟩ => ⟨S100000x64, .f32⟩
  | .hbm, ⟨55, _⟩ => ⟨S100000x1, .f32⟩
  | .hbm, ⟨56, _⟩ => ⟨S100000x64, .f32⟩
  | .hbm, ⟨57, _⟩ => ⟨S100000x64, .f32⟩
  | .hbm, ⟨58, _⟩ => ⟨S_, .i32⟩
  | .hbm, ⟨59, _⟩ => ⟨S1000000, .i32⟩
  | .hbm, ⟨60, _⟩ => ⟨S1000000, .i1⟩
  | .hbm, ⟨61, _⟩ => ⟨S_, .i32⟩
  | .hbm, ⟨62, _⟩ => ⟨S1000000, .i32⟩
  | .hbm, ⟨63, _⟩ => ⟨S1000000, .i32⟩
  | .hbm, ⟨64, _⟩ => ⟨S1000000, .i32⟩
  | .hbm, ⟨65, _⟩ => ⟨S1000000x1, .i32⟩
  | .hbm, ⟨66, _⟩ => ⟨S1000000x64, .f32⟩
  | .hbm, ⟨67, _⟩ => ⟨S_, .f32⟩
  | .hbm, ⟨68, _⟩ => ⟨S100000x64, .f32⟩
  | .hbm, ⟨69, _⟩ => ⟨S1000000x1, .i32⟩
  | .hbm, ⟨70, _⟩ => ⟨S100000x64, .f32⟩
  | .hbm, ⟨71, _⟩ => ⟨S100000x1, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | .hbm, ⟨78, _⟩ => ⟨S_, .f32⟩
  | .hbm, ⟨79, _⟩ => ⟨S100000x64, .f32⟩
  | .hbm, ⟨80, _⟩ => ⟨S100000x64, .f32⟩
  | .hbm, ⟨81, _⟩ => ⟨S100000x1, .f32⟩
  | .hbm, ⟨82, _⟩ => ⟨S100000x64, .f32⟩
  | .hbm, ⟨83, _⟩ => ⟨S100000x64, .f32⟩
  | .hbm, ⟨84, _⟩ => ⟨S_, .i32⟩
  | .hbm, ⟨85, _⟩ => ⟨S1000000, .i32⟩
  | .hbm, ⟨86, _⟩ => ⟨S1000000, .i1⟩
  | .hbm, ⟨87, _⟩ => ⟨S_, .i32⟩
  | .hbm, ⟨88, _⟩ => ⟨S1000000, .i32⟩
  | .hbm, ⟨89, _⟩ => ⟨S1000000, .i32⟩
  | .hbm, ⟨90, _⟩ => ⟨S1000000, .i32⟩
  | .hbm, ⟨91, _⟩ => ⟨S1000000x1, .i32⟩
  | .hbm, ⟨92, _⟩ => ⟨S1000000x64, .f32⟩
  | .hbm, ⟨93, _⟩ => ⟨S_, .f32⟩
  | .hbm, ⟨94, _⟩ => ⟨S100000x64, .f32⟩
  | .hbm, ⟨95, _⟩ => ⟨S1000000x1, .i32⟩
  | .hbm, ⟨96, _⟩ => ⟨S100000x64, .f32⟩
  | .hbm, ⟨97, _⟩ => ⟨S100000x1, .f32⟩
  | .hbm, ⟨98, _⟩ => ⟨S100000x64, .f32⟩
  | .hbm, ⟨99, _⟩ => ⟨S100000x64, .f32⟩
  | .hbm, ⟨100, _⟩ => ⟨S100000x64, .f32⟩
  | .hbm, ⟨101, _⟩ => ⟨S1x64, .f32⟩
  | .hbm, ⟨102, _⟩ => ⟨S100000x64, .f32⟩
  | .hbm, ⟨103, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_4 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call0_cst : Ref sig .tc := ⟨.hbm, 52, rfl⟩
abbrev main_call0_v0 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_7 : Ref sig .tc := ⟨.hbm, 58, rfl⟩
abbrev main_v38 : Ref sig .tc := ⟨.hbm, 59, rfl⟩
abbrev main_v39 : Ref sig .tc := ⟨.hbm, 60, rfl⟩
abbrev main_c_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_call1_cst : Ref sig .tc := ⟨.hbm, 78, rfl⟩
abbrev main_call1_v0 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_10 : Ref sig .tc := ⟨.hbm, 84, rfl⟩
abbrev main_v59 : Ref sig .tc := ⟨.hbm, 85, rfl⟩
abbrev main_v60 : Ref sig .tc := ⟨.hbm, 86, rfl⟩
abbrev main_c_11 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_12 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Layers.lean ====
/-
  The dense stages of a three-layer, symmetrically normalised graph convolution, as functions of whole
  arrays over the extended reals.

  A node feature array has 100000 rows (nodes) and 64 columns (features). A degree norm is one number per
  node, held as a column (100000 x 1); a bias is held as a row (1 x 64).

  * `scaleRows x s`      : row p of x times the node's norm s p.
  * `affine a s W b`     : row p of a is scaled by the node's norm s p, multiplied by the 64 x 64 matrix W, and
                           the bias row added:  (sum over k of (a p k * s p) * W k q) + b q.
  * `hidden a s W b t`   : the affine stage, clamped below at zero, times the node's other norm t p.

  Both programs of this certificate compute exactly these stages, in this order of operations, so no law of
  arithmetic beyond reading each operation at an index is needed to join them.
-/
import Idealize.ShloMosaic.PureOps.Ideal
import Idealize.ShloMosaic.Lib.ValueIdx

noncomputable section

namespace Cert.GraphConv

open Idealize.ShloMosaic Idealize.ShloMosaic.ValueIdx

/-- Node features: 100000 nodes, 64 features each. -/
abbrev Nodes : Shape := ⟨2, ![100000, 64]⟩
/-- One number per node, as a column. -/
abbrev NodeCol : Shape := ⟨2, ![100000, 1]⟩
/-- One number per node, as a plain vector. -/
abbrev NodeVec : Shape := ⟨1, ![100000]⟩
/-- A layer's weights. -/
abbrev Weights : Shape := ⟨2, ![64, 64]⟩
/-- A layer's bias, as a row. -/
abbrev BiasRow : Shape := ⟨2, ![1, 64]⟩
/-- A layer's bias, as a plain vector. -/
abbrev BiasVec : Shape := ⟨1, ![64]⟩

/-- Entry (p, q) of the row-scaled features: the feature times node p's norm. -/
def scaleRowsAt (x : Nodes.Idx → EReal) (s : NodeCol.Idx → EReal) (p : Fin 100000) (q : Fin 64) : EReal :=
  x (ix2 p q) * s (ix2 p 0)

/-- Every row of `x` scaled by its node's norm. -/
def scaleRows (x : Nodes.Idx → EReal) (s : NodeCol.Idx → EReal) : Nodes.Idx → EReal :=
  fun i => scaleRowsAt x s (i 0) (i 1)

/-- Entry (p, q) of the affine stage: row p of `a`, scaled by node p's norm, against column q of `W`, plus the
    bias at q. -/
def affineAt (a : Nodes.Idx → EReal) (s : NodeCol.Idx → EReal) (W : Weights.Idx → EReal) (b : BiasRow.Idx → EReal)
    (p : Fin 100000) (q : Fin 64) : EReal :=
  (∑ k : Fin 64, (a (ix2 p k) * s (ix2 p 0)) * W (ix2 k q)) + b (ix2 0 q)

/-- The affine stage of a layer: scale the aggregated rows by the in-degree norm, multiply by the weights, add the bias. -/
def affine (a : Nodes.Idx → EReal) (s : NodeCol.Idx → EReal) (W : Weights.Idx → EReal) (b : BiasRow.Idx → EReal) :
    Nodes.Idx → EReal :=
  fun i => affineAt a s W b (i 0) (i 1)

/-- Entry (p, q) of a hidden layer's output: the affine stage clamped below at zero, times node p's out-degree norm
    (the scaling the next layer's aggregation wants). -/
def hiddenAt (a : Nodes.Idx → EReal) (s : NodeCol.Idx → EReal) (W : Weights.Idx → EReal) (b : BiasRow.Idx → EReal)
    (t : NodeCol.Idx → EReal) (p : Fin 100000) (q : Fin 64) : EReal :=
  max (affineAt a s W b p q) 0 * t (ix2 p 0)

/-- A hidden layer: affine stage, clamp at zero, scale by the out-degree norm. -/
def hidden (a : Nodes.Idx → EReal) (s : NodeCol.Idx → EReal) (W : Weights.Idx → EReal) (b : BiasRow.Idx → EReal)
    (t : NodeCol.Idx → EReal) : Nodes.Idx → EReal :=
  fun i => hiddenAt a s W b t (i 0) (i 1)

/-- A per-node vector laid out as a column. -/
def asCol (v : NodeVec.Idx → EReal) : NodeCol.Idx → EReal := fun i => v (ix1 (i 0))

/-- A bias vector laid out as a row. -/
def asRow (b : BiasVec.Idx → EReal) : BiasRow.Idx → EReal := fun i => b (ix1 (i 1))

/-- The three layers composed, over whatever the aggregation step `agg` (gather each edge's source row, sum the rows
    arriving at each destination) and the two degree norms are: scale the input rows by the out-degree norm,
    aggregate, hidden layer, aggregate, hidden layer, aggregate, affine stage. Each hidden layer ends by scaling with
    the out-degree norm, which is the scaling the following aggregation wants. -/
def network (agg : (Nodes.Idx → EReal) → (Nodes.Idx → EReal)) (nout nin : NodeVec.Idx → EReal)
    (x : Nodes.Idx → EReal) (W1 : Weights.Idx → EReal) (b1 : BiasVec.Idx → EReal) (W2 : Weights.Idx → EReal)
    (b2 : BiasVec.Idx → EReal) (W3 : Weights.Idx → EReal) (b3 : BiasVec.Idx → EReal) : Nodes.Idx → EReal :=
  affine
    (agg (hidden
      (agg (hidden
        (agg (scaleRows x (asCol nout)))
        (asCol nin) W1 (asRow b1) (asCol nout)))
      (asCol nin) W2 (asRow b2) (asCol nout)))
    (asCol nin) W3 (asRow b3)

theorem scaleRows_apply (x : Nodes.Idx → EReal) (s : NodeCol.Idx → EReal) (p : Fin 100000) (q : Fin 64) :
    scaleRows x s (ix2 p q) = x (ix2 p q) * s (ix2 p 0) := rfl

theorem affine_apply (a : Nodes.Idx → EReal) (s : NodeCol.Idx → EReal) (W : Weights.Idx → EReal) (b : BiasRow.Idx → EReal)
    (p : Fin 100000) (q : Fin 64) :
    affine a s W b (ix2 p q) = (∑ k : Fin 64, (a (ix2 p k) * s (ix2 p 0)) * W (ix2 k q)) + b (ix2 0 q) := rfl

theorem hidden_apply (a : Nodes.Idx → EReal) (s : NodeCol.Idx → EReal) (W : Weights.Idx → EReal) (b : BiasRow.Idx → EReal)
    (t : NodeCol.Idx → EReal) (p : Fin 100000) (q : Fin 64) :
    hidden a s W b t (ix2 p q)
      = max ((∑ k : Fin 64, (a (ix2 p k) * s (ix2 p 0)) * W (ix2 k q)) + b (ix2 0 q)) 0 * t (ix2 p 0) := rfl

theorem asCol_apply (v : NodeVec.Idx → EReal) (p : Fin 100000) : asCol v (ix2 p 0) = v (ix1 p) := rfl

theorem asRow_apply (b : BiasVec.Idx → EReal) (q : Fin 64) : asRow b (ix2 0 q) = b (ix1 q) := rfl

end Cert.GraphConv

end
-- ==== Proof.Boundaries.lean ====
import proofs.«418122_j7739531067740_3_alg».proof.Proof.Gen.KernelIdeal.Frame
import proofs.«418122_j7739531067740_3_alg».proof.Proof.Layers
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.GraphConv.Ker

open Idealize.ShloMosaic Idealize.ShloMosaic.TcCoe Idealize.SL.Sem Idealize.ShloMosaic.ValueIdx Idealize.ShloMosaic.StableHlo
open Cert.KernelIdeal Cert.KernelIdeal.Gen Cert.GraphConv

/-- The aggregation step: gather each edge's source row (a negative index counts from the end of the table) and add
    every gathered row into its edge's destination row, starting from zero. -/
def gatherSum (src dst : IVec S1000000 32) (h : FVec Ideal S100000x64 .f32) : FVec Ideal S100000x64 .f32 :=
  Host.scatterAdd (F := Ideal) scatter_S100000x64_S1000000x1_S1000000x64_1_0_0_1
    (broadcastInDim S100000x64 ![] bcast_S_S100000x64 (constant (F := Ideal) S_ .f32 0x00000000#32))
    (broadcastInDim S1000000x1 ![0] bcast_S1000000_S1000000x1_0 dst)
    (Host.gather gather_S100000x64_S1000000x1_S1000000x64_1_0_n_n_0_1_164 h
      (broadcastInDim S1000000x1 ![0] bcast_S1000000_S1000000x1_0
        (select (cmpi .slt src (broadcastInDim S1000000 ![] bcast_S_S1000000 (constantI S_ 32 0#32)))
          (addi src (broadcastInDim S1000000 ![] bcast_S_S1000000 (constantI S_ 32 100000#32))) src)))

/-- The degree norm of an index list: the number of edges at each node (a one added per edge, from zero), at least
    one, to the power minus one half. -/
def degNorm (idx : IVec S1000000 32) : FVec Ideal S100000 .f32 :=
  Host.rsqrt (F := Ideal) (maximumf
    (Host.scatterAdd (F := Ideal) scatter_S100000_S1000000x1_S1000000_n_0_0_1
      (broadcastInDim S100000 ![] bcast_S_S100000 (constant (F := Ideal) S_ .f32 0x00000000#32))
      (broadcastInDim S1000000x1 ![0] bcast_S1000000_S1000000x1_0 idx)
      (broadcastInDim S1000000 ![] bcast_S_S1000000 (constant (F := Ideal) S_ .f32 0x3F800000#32)))
    (broadcastInDim S100000 ![] bcast_S_S100000 (constant (F := Ideal) S_ .f32 0x3F800000#32)))

/-- A per-node vector recast as a column holds entry p at (p, 0). -/
theorem cast_col (v : FVec Ideal S100000 .f32) (h : S100000.ShapeCasts S100000x1) :
    shapeCast S100000x1 v h = asCol v := by
  funext i
  refine shapeCast_apply v h i (ix1 (i 0)) ?_
  rw [Shape.rowMajor_val_two, Shape.rowMajor_val_one]
  have h1 : (i 1).val < 1 := (i 1).isLt
  show (i 0).val = (i 0).val * 1 + (i 1).val
  omega

/-- A bias vector recast as a row holds entry q at (0, q). -/
theorem cast_row (b : FVec Ideal S64 .f32) (h : S64.ShapeCasts S1x64) :
    shapeCast S1x64 b h = asRow b := by
  funext i
  obtain ⟨u, q, rfl⟩ : ∃ (u : Fin 1) (q : Fin 64), i = ix2 u q := ⟨i 0, i 1, eq_ix2 i⟩
  exact shapeCast_a_1a_apply b h u q

/-! ## The host stretches between the launches, from ANY contents `W` at their start

Each stretch aggregates the previous launch's output along the edges and lays the bias and the two norms out as
the next launch takes them (a row; two columns). It writes none of the buffers listed as kept. -/

section Stretches

variable (W : Valuation τ sig (Elt Ideal))

theorem stretch1_agg : StableHlo.after (hostOps1 (F := Ideal)) W (Proc.devRef .tc main_v27)
    = gatherSum (W (Proc.devRef .tc main_arg1)) (W (Proc.devRef .tc main_arg2)) (W (Proc.devRef .tc main_v17)) := by
  after_results
  rfl
theorem stretch1_bias : StableHlo.after (hostOps1 (F := Ideal)) W (Proc.devRef .tc main_v28) = asRow (W (Proc.devRef .tc main_arg4)) := by
  after_results
  exact cast_row _ _
theorem stretch1_nin : StableHlo.after (hostOps1 (F := Ideal)) W (Proc.devRef .tc main_v29) = asCol (W (Proc.devRef .tc main_v12)) := by
  after_results
  exact cast_col _ _
theorem stretch1_nout : StableHlo.after (hostOps1 (F := Ideal)) W (Proc.devRef .tc main_v30) = asCol (W (Proc.devRef .tc main_v9)) := by
  after_results
  exact cast_col _ _

theorem stretch2_agg : StableHlo.after (hostOps2 (F := Ideal)) W (Proc.devRef .tc main_v41)
    = gatherSum (W (Proc.devRef .tc main_arg1)) (W (Proc.devRef .tc main_arg2)) (W (Proc.devRef .tc main_v31)) := by
  after_results
  rfl
theorem stretch2_bias : StableHlo.after (hostOps2 (F := Ideal)) W (Proc.devRef .tc main_v42) = asRow (W (Proc.devRef .tc main_arg6)) := by
  after_results
  exact cast_row _ _
theorem stretch2_nin : StableHlo.after (hostOps2 (F := Ideal)) W (Proc.devRef .tc main_v43) = asCol (W (Proc.devRef .tc main_v12)) := by
  after_results
  exact cast_col _ _
theorem stretch2_nout : StableHlo.after (hostOps2 (F := Ideal)) W (Proc.devRef .tc main_v44) = asCol (W (Proc.devRef .tc main_v9)) := by
  after_results
  exact cast_col _ _

set_option maxHeartbeats 2000000 in
theorem stretch3_agg : StableHlo.after (hostOps3 (F := Ideal)) W (Proc.devRef .tc main_v55)
    = gatherSum (W (Proc.devRef .tc main_arg1)) (W (Proc.devRef .tc main_arg2)) (W (Proc.devRef .tc main_v45)) := by
  after_results
  rfl
theorem stretch3_bias : StableHlo.after (hostOps3 (F := Ideal)) W (Proc.devRef .tc main_v56) = asRow (W (Proc.devRef .tc main_arg8)) := by
  after_results
  exact cast_row _ _
theorem stretch3_nin : StableHlo.after (hostOps3 (F := Ideal)) W (Proc.devRef .tc main_v57) = asCol (W (Proc.devRef .tc main_v12)) := by
  after_results
  exact cast_col _ _

/-- What the later stretches and launches still read is written by none of the three stretches. -/
theorem stretch1_kept : StableHlo.after (hostOps1 (F := Ideal)) W (Proc.devRef .tc main_arg1) = W (Proc.devRef .tc main_arg1)
    ∧ StableHlo.after (hostOps1 (F := Ideal)) W (Proc.devRef .tc main_arg2) = W (Proc.devRef .tc main_arg2)
    ∧ StableHlo.after (hostOps1 (F := Ideal)) W (Proc.devRef .tc main_v9) = W (Proc.devRef .tc main_v9)
    ∧ StableHlo.after (hostOps1 (F := Ideal)) W (Proc.devRef .tc main_v12) = W (Proc.devRef .tc main_v12)
    ∧ StableHlo.after (hostOps1 (F := Ideal)) W (Proc.devRef .tc main_v13) = W (Proc.devRef .tc main_v13)
    ∧ StableHlo.after (hostOps1 (F := Ideal)) W (Proc.devRef .tc main_v14) = W (Proc.devRef .tc main_v14)
    ∧ StableHlo.after (hostOps1 (F := Ideal)) W (Proc.devRef .tc main_v15) = W (Proc.devRef .tc main_v15)
    ∧ StableHlo.after (hostOps1 (F := Ideal)) W (Proc.devRef .tc main_arg6) = W (Proc.devRef .tc main_arg6)
    ∧ StableHlo.after (hostOps1 (F := Ideal)) W (Proc.devRef .tc main_arg8) = W (Proc.devRef .tc main_arg8) := by
  refine ⟨?_, ?_, ?_, ?_, ?_, ?_, ?_, ?_, ?_⟩ <;> after_results
theorem stretch2_kept : StableHlo.after (hostOps2 (F := Ideal)) W (Proc.devRef .tc main_arg1) = W (Proc.devRef .tc main_arg1)
    ∧ StableHlo.after (hostOps2 (F := Ideal)) W (Proc.devRef .tc main_arg2) = W (Proc.devRef .tc main_arg2)
    ∧ StableHlo.after (hostOps2 (F := Ideal)) W (Proc.devRef .tc main_v12) = W (Proc.devRef .tc main_v12)
    ∧ StableHlo.after (hostOps2 (F := Ideal)) W (Proc.devRef .tc main_v14) = W (Proc.devRef .tc main_v14)
    ∧ StableHlo.after (hostOps2 (F := Ideal)) W (Proc.devRef .tc main_v15) = W (Proc.devRef .tc main_v15)
    ∧ StableHlo.after (hostOps2 (F := Ideal)) W (Proc.devRef .tc main_arg8) = W (Proc.devRef .tc main_arg8) := by
  refine ⟨?_, ?_, ?_, ?_, ?_, ?_⟩ <;> after_results
theorem stretch3_kept : StableHlo.after (hostOps3 (F := Ideal)) W (Proc.devRef .tc main_v15) = W (Proc.devRef .tc main_v15) := by
  after_results

end Stretches

variable (m : (ℓ : Loc nD τ sig) → Buf (Elt Ideal) ℓ) (ρ : Dev nD → PrngReg) (c : Dev nD)

/-! ## After the first host stretch: the two degree norms, the weights as the launches take them (a change of float
    format, the identity on extended reals), the out-degree norm as a column; the arguments untouched -/

theorem W1_arg0 : W1 m ρ c (Proc.devRef .tc main_arg0) = (m ((c : Thread nD τ).loc main_arg0)) := by
  show StableHlo.after hostOps0 (W0 m ρ c) (Proc.devRef .tc main_arg0) = _
  after_results
theorem W1_arg1 : W1 m ρ c (Proc.devRef .tc main_arg1) = (m ((c : Thread nD τ).loc main_arg1)) := by
  show StableHlo.after hostOps0 (W0 m ρ c) (Proc.devRef .tc main_arg1) = _
  after_results
theorem W1_arg2 : W1 m ρ c (Proc.devRef .tc main_arg2) = (m ((c : Thread nD τ).loc main_arg2)) := by
  show StableHlo.after hostOps0 (W0 m ρ c) (Proc.devRef .tc main_arg2) = _
  after_results
theorem W1_arg4 : W1 m ρ c (Proc.devRef .tc main_arg4) = (m ((c : Thread nD τ).loc main_arg4)) := by
  show StableHlo.after hostOps0 (W0 m ρ c) (Proc.devRef .tc main_arg4) = _
  after_results
theorem W1_arg6 : W1 m ρ c (Proc.devRef .tc main_arg6) = (m ((c : Thread nD τ).loc main_arg6)) := by
  show StableHlo.after hostOps0 (W0 m ρ c) (Proc.devRef .tc main_arg6) = _
  after_results
theorem W1_arg8 : W1 m ρ c (Proc.devRef .tc main_arg8) = (m ((c : Thread nD τ).loc main_arg8)) := by
  show StableHlo.after hostOps0 (W0 m ρ c) (Proc.devRef .tc main_arg8) = _
  after_results
theorem W1_v9 : W1 m ρ c (Proc.devRef .tc main_v9) = degNorm (m ((c : Thread nD τ).loc main_arg1)) := by
  show StableHlo.after hostOps0 (W0 m ρ c) (Proc.devRef .tc main_v9) = _
  after_results
  rfl
theorem W1_v12 : W1 m ρ c (Proc.devRef .tc main_v12) = degNorm (m ((c : Thread nD τ).loc main_arg2)) := by
  show StableHlo.after hostOps0 (W0 m ρ c) (Proc.devRef .tc main_v12) = _
  after_results
  rfl
theorem W1_v13 : (W1 m ρ c (Proc.devRef .tc main_v13) : Weights.Idx → EReal) = (m ((c : Thread nD τ).loc main_arg3)) := by
  show StableHlo.after hostOps0 (W0 m ρ c) (Proc.devRef .tc main_v13) = _
  after_results
  rfl
theorem W1_v14 : (W1 m ρ c (Proc.devRef .tc main_v14) : Weights.Idx → EReal) = (m ((c : Thread nD τ).loc main_arg5)) := by
  show StableHlo.after hostOps0 (W0 m ρ c) (Proc.devRef .tc main_v14) = _
  after_results
  rfl
theorem W1_v15 : (W1 m ρ c (Proc.devRef .tc main_v15) : Weights.Idx → EReal) = (m ((c : Thread nD τ).loc main_arg7)) := by
  show StableHlo.after hostOps0 (W0 m ρ c) (Proc.devRef .tc main_v15) = _
  after_results
  rfl
theorem W1_v16 : W1 m ρ c (Proc.devRef .tc main_v16) = asCol (degNorm (m ((c : Thread nD τ).loc main_arg1))) := by
  show StableHlo.after hostOps0 (W0 m ρ c) (Proc.devRef .tc main_v16) = _
  after_results
  exact cast_col _ _

/-! ## What each launch's value lemma says, as a proposition (the four lemmas are proved in their own modules) -/

abbrev Region0Value : Prop := ∀ (V : (c : Dev nD) → (b : Ref sig .tc) → Buf (Elt Ideal) ((c : Thread nD τ).loc b)) (c : Dev nD),
  (dat0 (F := Ideal) V c).arrAt 2 cfg0.N = scaleRows (V c main_arg0) (V c main_v16)
abbrev Region1Value : Prop := ∀ (V : (c : Dev nD) → (b : Ref sig .tc) → Buf (Elt Ideal) ((c : Thread nD τ).loc b)) (c : Dev nD),
  (dat1 (F := Ideal) V c).arrAt 5 cfg1.N = hidden (V c main_v27) (V c main_v29) (V c main_v13) (V c main_v28) (V c main_v30)
abbrev Region2Value : Prop := ∀ (V : (c : Dev nD) → (b : Ref sig .tc) → Buf (Elt Ideal) ((c : Thread nD τ).loc b)) (c : Dev nD),
  (dat2 (F := Ideal) V c).arrAt 5 cfg2.N = hidden (V c main_v41) (V c main_v43) (V c main_v14) (V c main_v42) (V c main_v44)
abbrev Region3Value : Prop := ∀ (V : (c : Dev nD) → (b : Ref sig .tc) → Buf (Elt Ideal) ((c : Thread nD τ).loc b)) (c : Dev nD),
  (dat3 (F := Ideal) V c).arrAt 4 cfg3.N = affine (V c main_v55) (V c main_v57) (V c main_v15) (V c main_v56)

/-! ## The launches' outputs, as functions of the launch contents -/

/-- The input rows scaled by the out-degree norm: what the first launch leaves. -/
def h0 : Nodes.Idx → EReal := scaleRows (m ((c : Thread nD τ).loc main_arg0)) (asCol (degNorm (m ((c : Thread nD τ).loc main_arg1))))
/-- The first hidden layer over the aggregated `h0`: what the second launch leaves. -/
def h1 : Nodes.Idx → EReal :=
  hidden (gatherSum (m ((c : Thread nD τ).loc main_arg1)) (m ((c : Thread nD τ).loc main_arg2)) (h0 m c)) (asCol (degNorm (m ((c : Thread nD τ).loc main_arg2)))) (m ((c : Thread nD τ).loc main_arg3)) (asRow (m ((c : Thread nD τ).loc main_arg4))) (asCol (degNorm (m ((c : Thread nD τ).loc main_arg1))))
/-- The second hidden layer over the aggregated `h1`: what the third launch leaves. -/
def h2 : Nodes.Idx → EReal :=
  hidden (gatherSum (m ((c : Thread nD τ).loc main_arg1)) (m ((c : Thread nD τ).loc main_arg2)) (h1 m c)) (asCol (degNorm (m ((c : Thread nD τ).loc main_arg2)))) (m ((c : Thread nD τ).loc main_arg5)) (asRow (m ((c : Thread nD τ).loc main_arg6))) (asCol (degNorm (m ((c : Thread nD τ).loc main_arg1))))

/-! ## After the first launch -/

theorem W2_arg1 : W2 m ρ c (Proc.devRef .tc main_arg1) = m ((c : Thread nD τ).loc main_arg1) := (W2_of_ne m ρ c main_arg1 (by decide)).trans (W1_arg1 m ρ c)
theorem W2_arg2 : W2 m ρ c (Proc.devRef .tc main_arg2) = m ((c : Thread nD τ).loc main_arg2) := (W2_of_ne m ρ c main_arg2 (by decide)).trans (W1_arg2 m ρ c)
theorem W2_arg4 : W2 m ρ c (Proc.devRef .tc main_arg4) = m ((c : Thread nD τ).loc main_arg4) := (W2_of_ne m ρ c main_arg4 (by decide)).trans (W1_arg4 m ρ c)
theorem W2_v9 : W2 m ρ c (Proc.devRef .tc main_v9) = degNorm (m ((c : Thread nD τ).loc main_arg1)) := (W2_of_ne m ρ c main_v9 (by decide)).trans (W1_v9 m ρ c)
theorem W2_v12 : W2 m ρ c (Proc.devRef .tc main_v12) = degNorm (m ((c : Thread nD τ).loc main_arg2)) := (W2_of_ne m ρ c main_v12 (by decide)).trans (W1_v12 m ρ c)
theorem W2_v13 : (W2 m ρ c (Proc.devRef .tc main_v13) : Weights.Idx → EReal) = m ((c : Thread nD τ).loc main_arg3) := (W2_of_ne m ρ c main_v13 (by decide)).trans (W1_v13 m ρ c)

theorem W2_v17 (hr0 : Region0Value) : W2 m ρ c (Proc.devRef .tc main_v17) = h0 m c := by
  unfold h0
  rw [show W2 m ρ c (Proc.devRef .tc main_v17) = (dat0 (V1 m ρ) c).arrAt 2 cfg0.N from W2_arr m ρ c 2, hr0]
  show scaleRows (W1 m ρ c (Proc.devRef .tc main_arg0)) (W1 m ρ c (Proc.devRef .tc main_v16)) = _
  rw [W1_arg0, W1_v16]

/-! ## After the second launch -/

theorem W4_arg1 : W4 m ρ c (Proc.devRef .tc main_arg1) = m ((c : Thread nD τ).loc main_arg1) :=
  (W4_of_ne m ρ c main_arg1 (by decide)).trans ((stretch1_kept (W2 m ρ c)).1.trans (W2_arg1 m ρ c))
theorem W4_arg2 : W4 m ρ c (Proc.devRef .tc main_arg2) = m ((c : Thread nD τ).loc main_arg2) :=
  (W4_of_ne m ρ c main_arg2 (by decide)).trans ((stretch1_kept (W2 m ρ c)).2.1.trans (W2_arg2 m ρ c))
theorem W4_v9 : W4 m ρ c (Proc.devRef .tc main_v9) = degNorm (m ((c : Thread nD τ).loc main_arg1)) :=
  (W4_of_ne m ρ c main_v9 (by decide)).trans ((stretch1_kept (W2 m ρ c)).2.2.1.trans (W2_v9 m ρ c))
theorem W4_v12 : W4 m ρ c (Proc.devRef .tc main_v12) = degNorm (m ((c : Thread nD τ).loc main_arg2)) :=
  (W4_of_ne m ρ c main_v12 (by decide)).trans ((stretch1_kept (W2 m ρ c)).2.2.2.1.trans (W2_v12 m ρ c))
theorem W4_v14 : (W4 m ρ c (Proc.devRef .tc main_v14) : Weights.Idx → EReal) = m ((c : Thread nD τ).loc main_arg5) :=
  (W4_of_ne m ρ c main_v14 (by decide)).trans ((stretch1_kept (W2 m ρ c)).2.2.2.2.2.1.trans
    ((W2_of_ne m ρ c main_v14 (by decide)).trans (W1_v14 m ρ c)))
theorem W4_arg6 : W4 m ρ c (Proc.devRef .tc main_arg6) = m ((c : Thread nD τ).loc main_arg6) :=
  (W4_of_ne m ρ c main_arg6 (by decide)).trans ((stretch1_kept (W2 m ρ c)).2.2.2.2.2.2.2.1.trans
    ((W2_of_ne m ρ c main_arg6 (by decide)).trans (W1_arg6 m ρ c)))

theorem W4_v31 (hr0 : Region0Value) (hr1 : Region1Value) : W4 m ρ c (Proc.devRef .tc main_v31) = h1 m c := by
  unfold h1
  rw [show W4 m ρ c (Proc.devRef .tc main_v31) = (dat1 (V3 m ρ) c).arrAt 5 cfg1.N from W4_arr m ρ c 5, hr1]
  show hidden (StableHlo.after hostOps1 (W2 m ρ c) (Proc.devRef .tc main_v27)) (StableHlo.after hostOps1 (W2 m ρ c) (Proc.devRef .tc main_v29))
    (StableHlo.after hostOps1 (W2 m ρ c) (Proc.devRef .tc main_v13)) (StableHlo.after hostOps1 (W2 m ρ c) (Proc.devRef .tc main_v28))
    (StableHlo.after hostOps1 (W2 m ρ c) (Proc.devRef .tc main_v30)) = _
  rw [stretch1_agg, stretch1_nin, stretch1_bias, stretch1_nout, (stretch1_kept (W2 m ρ c)).2.2.2.2.1,
    W2_arg1, W2_arg2, W2_v17 m ρ c hr0, W2_v12, W2_v13, W2_arg4, W2_v9]

/-! ## After the third launch -/

theorem W6_arg1 : W6 m ρ c (Proc.devRef .tc main_arg1) = m ((c : Thread nD τ).loc main_arg1) :=
  (W6_of_ne m ρ c main_arg1 (by decide)).trans ((stretch2_kept (W4 m ρ c)).1.trans (W4_arg1 m ρ c))
theorem W6_arg2 : W6 m ρ c (Proc.devRef .tc main_arg2) = m ((c : Thread nD τ).loc main_arg2) :=
  (W6_of_ne m ρ c main_arg2 (by decide)).trans ((stretch2_kept (W4 m ρ c)).2.1.trans (W4_arg2 m ρ c))
theorem W6_v12 : W6 m ρ c (Proc.devRef .tc main_v12) = degNorm (m ((c : Thread nD τ).loc main_arg2)) :=
  (W6_of_ne m ρ c main_v12 (by decide)).trans ((stretch2_kept (W4 m ρ c)).2.2.1.trans (W4_v12 m ρ c))
theorem W6_v15 : (W6 m ρ c (Proc.devRef .tc main_v15) : Weights.Idx → EReal) = m ((c : Thread nD τ).loc main_arg7) :=
  (W6_of_ne m ρ c main_v15 (by decide)).trans ((stretch2_kept (W4 m ρ c)).2.2.2.2.1.trans
    ((W4_of_ne m ρ c main_v15 (by decide)).trans ((stretch1_kept (W2 m ρ c)).2.2.2.2.2.2.1.trans
      ((W2_of_ne m ρ c main_v15 (by decide)).trans (W1_v15 m ρ c)))))
theorem W6_arg8 : W6 m ρ c (Proc.devRef .tc main_arg8) = m ((c : Thread nD τ).loc main_arg8) :=
  (W6_of_ne m ρ c main_arg8 (by decide)).trans ((stretch2_kept (W4 m ρ c)).2.2.2.2.2.trans
    ((W4_of_ne m ρ c main_arg8 (by decide)).trans ((stretch1_kept (W2 m ρ c)).2.2.2.2.2.2.2.2.trans
      ((W2_of_ne m ρ c main_arg8 (by decide)).trans (W1_arg8 m ρ c)))))

theorem W6_v45 (hr0 : Region0Value) (hr1 : Region1Value) (hr2 : Region2Value) : W6 m ρ c (Proc.devRef .tc main_v45) = h2 m c := by
  unfold h2
  rw [show W6 m ρ c (Proc.devRef .tc main_v45) = (dat2 (V5 m ρ) c).arrAt 5 cfg2.N from W6_arr m ρ c 5, hr2]
  show hidden (StableHlo.after hostOps2 (W4 m ρ c) (Proc.devRef .tc main_v41)) (StableHlo.after hostOps2 (W4 m ρ c) (Proc.devRef .tc main_v43))
    (StableHlo.after hostOps2 (W4 m ρ c) (Proc.devRef .tc main_v14)) (StableHlo.after hostOps2 (W4 m ρ c) (Proc.devRef .tc main_v42))
    (StableHlo.after hostOps2 (W4 m ρ c) (Proc.devRef .tc main_v44)) = _
  rw [stretch2_agg, stretch2_nin, stretch2_bias, stretch2_nout, (stretch2_kept (W4 m ρ c)).2.2.2.1,
    W4_arg1, W4_arg2, W4_v31 m ρ c hr0 hr1, W4_v12, W4_v14, W4_arg6, W4_v9]

/-! ## After the last launch: the result -/

/-- The kernel program's result array, at the end of its run, is the three layers composed over the kernel's own
    aggregation step and degree norms. -/
theorem kernel_value (hr0 : Region0Value) (hr1 : Region1Value) (hr2 : Region2Value) (hr3 : Region3Value) :
    W8 m ρ c (Proc.devRef .tc main_v58)
      = network (gatherSum (m ((c : Thread nD τ).loc main_arg1)) (m ((c : Thread nD τ).loc main_arg2))) (degNorm (m ((c : Thread nD τ).loc main_arg1))) (degNorm (m ((c : Thread nD τ).loc main_arg2)))
          (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [show W8 m ρ c (Proc.devRef .tc main_v58) = (dat3 (V7 m ρ) c).arrAt 4 cfg3.N from W8_arr m ρ c 4, hr3]
  show affine (StableHlo.after hostOps3 (W6 m ρ c) (Proc.devRef .tc main_v55)) (StableHlo.after hostOps3 (W6 m ρ c) (Proc.devRef .tc main_v57))
    (StableHlo.after hostOps3 (W6 m ρ c) (Proc.devRef .tc main_v15)) (StableHlo.after hostOps3 (W6 m ρ c) (Proc.devRef .tc main_v56)) = _
  rw [stretch3_agg, stretch3_nin, stretch3_bias, stretch3_kept,
    W6_arg1, W6_arg2, W6_v45 m ρ c hr0 hr1 hr2, W6_v12, W6_v15, W6_arg8]
  rfl

end Cert.GraphConv.Ker

end
-- ==== Proof.RegionScale.lean ====
import proofs.«418122_j7739531067740_3_alg».proof.Proof.Gen.KernelIdeal.Frame
import proofs.«418122_j7739531067740_3_alg».proof.Proof.Layers
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.GraphConv.Ker

open Idealize.ShloMosaic Idealize.ShloMosaic.TcCoe Idealize.SL.Sem Idealize.ShloMosaic.ValueIdx
open Cert.KernelIdeal Cert.KernelIdeal.Gen Cert.GraphConv

variable (V : (c : Dev nD) → (b : Ref sig .tc) → Buf (Elt Ideal) ((c : Thread nD τ).loc b))

namespace Scale

/-- The zero offsets of a whole-block access, as the constant function. -/
theorem zero_offsets : (![0, 0] : Fin 2 → Nat) = fun _ => 0 := funext fun a => by fin_cases a <;> rfl

/-- A column `[a, 1]` broadcast along the rows to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## One block -/

/-- The block the scaling kernel stores, entry by entry: the feature times the norm of its row. -/
theorem scale_payload_apply (x0 : Vec Ideal S5000x64 .f32) (x1 : Vec Ideal S5000x1 .f32) (p : Fin 5000) (q : Fin 64) :
    k0_pay1 x0 x1 (ix2 p q) = x0 (ix2 p q) * x1 (ix2 p 0) := by
  unfold k0_pay1
  rw [mulf_apply, shapeCast_self, broadcastTo_a1_ab_apply]

/-- When `x0` is rows `5000 b …` of the features `X` and `x1` the same rows of the norm column `S`, the stored block is
    those rows of `scaleRows X S`: entry `j` of the block is entry `i` of the array, `i` being `j` moved down `5000 b` rows. -/
theorem scale_entry (X : Nodes.Idx → EReal) (S : NodeCol.Idx → EReal)
    (x0 : Vec Ideal S5000x64 .f32) (x1 : Vec Ideal S5000x1 .f32) (b : ℕ)
    (h0 : ∀ (j : S5000x64.Idx) (i : Nodes.Idx), (i 0).val = b * 5000 + (j 0).val → (i 1).val = (j 1).val → x0 j = X i)
    (h1 : ∀ (j : S5000x1.Idx) (i : NodeCol.Idx), (i 0).val = b * 5000 + (j 0).val → x1 j = S i)
    (j : S5000x64.Idx) (i : Nodes.Idx) (hi0 : (i 0).val = b * 5000 + (j 0).val) (hi1 : (i 1).val = (j 1).val) :
    k0_pay1 x0 x1 j = scaleRows X S i := by
  obtain ⟨p, q, rfl⟩ : ∃ (p : Fin 5000) (q : Fin 64), j = ix2 p q := ⟨j 0, j 1, eq_ix2 j⟩
  obtain ⟨r, s, rfl⟩ : ∃ (r : Fin 100000) (s : Fin 64), i = ix2 r s := ⟨i 0, i 1, eq_ix2 i⟩
  obtain rfl : s = q := Fin.ext hi1
  rw [scale_payload_apply, scaleRows_apply, h0 (ix2 p s) (ix2 r s) hi0 rfl, h1 (ix2 p 0) (ix2 r 0) hi0]

/-! ## The blocks in the arrays -/

/-- At point `t` every window's block is row block `t`, column block `0` (decided over the grid's 20 points). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The features' block at point `t` is rows `5000 t …` of the features. -/
theorem features_block (c : Dev nD) (t : Fin cfg0.N) (j : S5000x64.Idx) (i : Nodes.Idx)
    (hi0 : (i 0).val = t.val * 5000 + (j 0).val) (hi1 : (i 1).val = (j 1).val) :
    (iblk0 V c 0 t : Vec Ideal S5000x64 .f32) j = (V c main_arg0 : Nodes.Idx → EReal) i := by
  obtain ⟨e0, e1, -⟩ := block_indices t
  show V c main_arg0 (((cfg0.win 0).blk t).view.emb j) = V c main_arg0 i
  refine congrArg _ (funext fun a => Fin.ext ?_)
  match a with
  | ⟨0, _⟩ => show win0_0.index t (0 : Fin 2) * 5000 + 1 * (j 0).val = (i 0).val; rw [e0, hi0]; omega
  | ⟨1, _⟩ => show win0_0.index t (1 : Fin 2) * 64 + 1 * (j 1).val = (i 1).val; rw [e1, hi1]; omega

/-- The norm column's block at point `t` is rows `5000 t …` of the column. -/
theorem norm_block (c : Dev nD) (t : Fin cfg0.N) (j : S5000x1.Idx) (i : NodeCol.Idx)
    (hi0 : (i 0).val = t.val * 5000 + (j 0).val) :
    (iblk0 V c 1 t : Vec Ideal S5000x1 .f32) j = (V c main_v16 : NodeCol.Idx → EReal) i := by
  obtain ⟨-, -, e0, e1, -⟩ := block_indices t
  show V c main_v16 (((cfg0.win 1).blk t).view.emb j) = V c main_v16 i
  refine congrArg _ (funext fun a => Fin.ext ?_)
  match a with
  | ⟨0, _⟩ => show win0_1.index t (0 : Fin 2) * 5000 + 1 * (j 0).val = (i 0).val; rw [e0, hi0]; omega
  | ⟨1, _⟩ =>
    show win0_1.index t (1 : Fin 2) * 1 + 1 * (j 1).val = (i 1).val
    have hj : (j 1).val < 1 := (j 1).isLt
    have hi : (i 1).val < 1 := (i 1).isLt
    rw [e1]; omega

/-- What point `t` writes back is row block `t` of the scaled features. -/
theorem scale_flushed (c : Dev nD) (t : Fin cfg0.N) :
    (dat0 (F := Ideal) V c).flushed 2 t
      = ((cfg0.win 2).blk t).view.read (Elt Ideal) (scaleRows (V c main_arg0) (V c main_v16)) := by
  show (cfg0.win 2).cut (grid0.coords t) ((dat0 V c).after 2 t) = _
  rw [after0_2]
  unfold out0_2
  rw [View.canon_unit_zero zero_offsets]
  simp only [View.ld_unit_zero (S := S5000x64) zero_offsets, View.ld_unit_zero (S := S5000x1) zero_offsets]
  funext j
  obtain ⟨-, -, -, -, e0, e1⟩ := block_indices t
  show k0_pay1 (iblk0 V c 0 t) (iblk0 V c 1 t) j
    = scaleRows (V c main_arg0) (V c main_v16) (((cfg0.win 2).blk t).view.emb j)
  refine scale_entry (V c main_arg0) (V c main_v16) (iblk0 V c 0 t) (iblk0 V c 1 t) t.val
    (fun j i h0 h1 => features_block V c t j i h0 h1) (fun j i h0 => norm_block V c t j i h0) j _ ?_ ?_
  · show win0_2.index t (0 : Fin 2) * 5000 + 1 * (j 0).val = t.val * 5000 + (j 0).val; rw [e0]; omega
  · show win0_2.index t (1 : Fin 2) * 64 + 1 * (j 1).val = (j 1).val; rw [e1]; omega

/-! ## The whole array -/

/-- An index of the output array is in point `t`'s block iff each coordinate is in the block's range on its axis. -/
theorem mem_out_block (t : Fin cfg0.N) (i : Nodes.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v17).slice (win0_2.rect t)).set ↔ _
  rw [View.set_slice_whole, Rect.mem_set_unit]
  exact Iff.rfl

/-- Row `r` is in the block of point `r / 5000`: the 20 row blocks tile the array. -/
theorem scale_cover (i : Nodes.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, e0, e1⟩ := block_indices t
  refine ⟨t, flush0_2 t, ?_⟩
  rw [mem_out_block]
  intro a
  match a with
  | ⟨0, _⟩ =>
    show win0_2.index t (0 : Fin 2) * 5000 ≤ (i 0).val ∧ (i 0).val < win0_2.index t (0 : Fin 2) * 5000 + 5000
    rw [e0, ht]; omega
  | ⟨1, _⟩ =>
    show win0_2.index t (1 : Fin 2) * 64 ≤ (i 1).val ∧ (i 1).val < win0_2.index t (1 : Fin 2) * 64 + 64
    rw [e1]; omega

end Scale

/-- After the region the output array is the features with every row scaled by its node's norm. -/
theorem region0_value (c : Dev nD) :
    (dat0 (F := Ideal) V c).arrAt 2 cfg0.N = scaleRows (V c main_arg0) (V c main_v16) :=
  (dat0 V c).arrAt_eq_of_cover 2 _ (fun t _ => Scale.scale_flushed V c t) Scale.scale_cover

end Cert.GraphConv.Ker

end
-- ==== Proof.RegionHidden1.lean ====
import proofs.«418122_j7739531067740_3_alg».proof.Proof.Gen.KernelIdeal.Frame
import proofs.«418122_j7739531067740_3_alg».proof.Proof.Layers
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.GraphConv.Ker

open Idealize.ShloMosaic Idealize.ShloMosaic.TcCoe Idealize.SL.Sem Idealize.ShloMosaic.ValueIdx
open Cert.KernelIdeal Cert.KernelIdeal.Gen Cert.GraphConv

variable (V : (c : Dev nD) → (b : Ref sig .tc) → Buf (Elt Ideal) ((c : Thread nD τ).loc b))

/-! # Region 1: the first hidden layer

The region runs over 20 grid points. At point `t` it loads rows `5000 t … 5000 t + 4999` of the aggregated features
and of the two degree-norm columns, together with the whole weight matrix and bias row, and stores rows
`5000 t … 5000 t + 4999` of its output. Entry `(p, q)` of the stored block depends on row `p` of the aggregated block,
on the two norms of that row, on column `q` of the weights and on the bias at `q`. So the 20 stored blocks are the 20
row blocks of one array: the hidden layer of the arrays the region finds. -/

namespace Hidden1

/-- A column broadcast across the columns: a `[a, 1]` array broadcast to `[a, b]` reads, at `(p, c)`, the
    column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand's index of the block product keeps the output's row … -/
theorem lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … and takes the contraction index as its column; -/
theorem lhs_col (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- the right operand's index takes the contraction index as its row … -/
theorem rhs_row (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- … and keeps the output's column. -/
theorem rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The block product into the zero accumulator, read at `(p, q)`: row `p` of the left block against column `q` of
    the right one, summed over the 64 inner indices. -/
theorem blockProduct_apply (l : FVec Ideal S5000x64 .bf16) (r : FVec Ideal S64x64 .bf16) (p : Fin 5000) (q : Fin 64) :
    matmul dot_S5000x64_S64x64_S5000x64_1_0_0_1_n_n none l r (constant S5000x64 .f32 0x00000000#32) (ix2 p q)
      = ∑ k : Fin 64, l (ix2 p k) * r (ix2 k q) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_row _ _
    | ⟨1, _⟩ => exact (lhs_col _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_row _ _).trans hk
    | ⟨1, _⟩ => exact rhs_col _ _)
  rw [el, er]

/-- THE PAYLOAD AT AN INDEX. Entry `(p, q)` of what one grid point computes from its blocks: row `p` of the
    aggregated block, scaled by the row's in-degree norm, against column `q` of the weights, plus the bias at `q`,
    clamped below at zero, times the row's out-degree norm. -/
theorem payload_apply (x0 : FVec Ideal S5000x64 .f32) (x2 : FVec Ideal S5000x1 .f32) (x7 : FVec Ideal S64x64 .bf16)
    (x10 : FVec Ideal S1x64 .f32) (x17 : FVec Ideal S5000x1 .f32) (p : Fin 5000) (q : Fin 64) :
    k1_pay1 (F := Ideal) x0 x2 x7 x10 x17 (ix2 p q)
      = max ((∑ k : Fin 64, (x0 (ix2 p k) * x2 (ix2 p 0)) * x7 (ix2 k q)) + x10 (ix2 0 q)) 0 * x17 (ix2 p 0) := by
  unfold k1_pay1
  simp only [shapeCast_self]
  rw [mulf_apply, maximumf_apply, addf_apply, broadcast_apply, blockProduct_apply, broadcastTo_1b_ab_apply,
    broadcastTo_a1_ab_apply]
  simp only [truncf_apply, mulf_apply, broadcastTo_a1_ab_apply]
  have hzero : (FloatOps.ofBits (F := Ideal) .f32 0x00000000#32 : EReal) = 0 := Ideal.ofBits_zero_f32
  rw [hzero]

/-- The zero offsets of a whole-block access, spelt as a constant function. -/
theorem zeroOffsets : (![0, 0] : Fin 2 → Nat) = fun _ => 0 := funext fun a => by fin_cases a <;> rfl

/-- WHERE EACH WINDOW'S BLOCK SITS at grid point `t`, decided once over the 20 points: the aggregated rows, the two
    norm columns and the output move down the rows with the point (block row `t`, block column 0); the weights and the
    bias row stay at block (0, 0). -/
theorem blockIndex : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- The aggregated block at point `t` is rows `5000 t … 5000 t + 4999` of the aggregated array. -/
theorem aggBlock_apply (c : Dev nD) (t : Fin cfg1.N) (p : Fin 5000) (k : Fin 64) (r : Fin 100000)
    (hr : r.val = t.val * 5000 + p.val) :
    (iblk1 V c 0 t : FVec Ideal S5000x64 .f32) (ix2 p k) = (V c main_v27 : Nodes.Idx → EReal) (ix2 r k) := by
  obtain ⟨e0, e1, -⟩ := blockIndex t
  unfold iblk1
  rw [View.read_apply]
  show (V c main_v27 : Nodes.Idx → EReal) _ = V c main_v27 _
  refine congrArg (V c main_v27 : Nodes.Idx → EReal) (funext fun a => Fin.ext ?_)
  match a with
  | ⟨0, _⟩ => show win1_0.index t (0 : Fin 2) * 5000 + 1 * p.val = r.val; rw [e0, hr]; omega
  | ⟨1, _⟩ => show win1_0.index t (1 : Fin 2) * 64 + 1 * k.val = k.val; rw [e1]; omega

/-- The weights' block at every point is the whole weight matrix. -/
theorem weightBlock_apply (c : Dev nD) (t : Fin cfg1.N) (k q : Fin 64) :
    (iblk1 V c 1 t : FVec Ideal S64x64 .bf16) (ix2 k q) = (V c main_v13 : Weights.Idx → EReal) (ix2 k q) := by
  obtain ⟨-, -, e0, e1, -⟩ := blockIndex t
  unfold iblk1
  rw [View.read_apply]
  show (V c main_v13 : Weights.Idx → EReal) _ = V c main_v13 _
  refine congrArg (V c main_v13 : Weights.Idx → EReal) (funext fun a => Fin.ext ?_)
  match a with
  | ⟨0, _⟩ => show win1_1.index t (0 : Fin 2) * 64 + 1 * k.val = k.val; rw [e0]; omega
  | ⟨1, _⟩ => show win1_1.index t (1 : Fin 2) * 64 + 1 * q.val = q.val; rw [e1]; omega

/-- The bias block at every point is the whole bias row. -/
theorem biasBlock_apply (c : Dev nD) (t : Fin cfg1.N) (q : Fin 64) :
    (iblk1 V c 2 t : FVec Ideal S1x64 .f32) (ix2 0 q) = (V c main_v28 : BiasRow.Idx → EReal) (ix2 0 q) := by
  obtain ⟨-, -, -, -, e0, e1, -⟩ := blockIndex t
  unfold iblk1
  rw [View.read_apply]
  show (V c main_v28 : BiasRow.Idx → EReal) _ = V c main_v28 _
  refine congrArg (V c main_v28 : BiasRow.Idx → EReal) (funext fun a => Fin.ext ?_)
  match a with
  | ⟨0, _⟩ => show win1_2.index t (0 : Fin 2) * 1 + 1 * 0 = 0; rw [e0]
  | ⟨1, _⟩ => show win1_2.index t (1 : Fin 2) * 64 + 1 * q.val = q.val; rw [e1]; omega

/-- The in-degree norm block at point `t` is rows `5000 t … 5000 t + 4999` of the in-degree norm column. -/
theorem inNormBlock_apply (c : Dev nD) (t : Fin cfg1.N) (p : Fin 5000) (r : Fin 100000)
    (hr : r.val = t.val * 5000 + p.val) :
    (iblk1 V c 3 t : FVec Ideal S5000x1 .f32) (ix2 p 0) = (V c main_v29 : NodeCol.Idx → EReal) (ix2 r 0) := by
  obtain ⟨-, -, -, -, -, -, e0, e1, -⟩ := blockIndex t
  unfold iblk1
  rw [View.read_apply]
  show (V c main_v29 : NodeCol.Idx → EReal) _ = V c main_v29 _
  refine congrArg (V c main_v29 : NodeCol.Idx → EReal) (funext fun a => Fin.ext ?_)
  match a with
  | ⟨0, _⟩ => show win1_3.index t (0 : Fin 2) * 5000 + 1 * p.val = r.val; rw [e0, hr]; omega
  | ⟨1, _⟩ => show win1_3.index t (1 : Fin 2) * 1 + 1 * 0 = 0; rw [e1]

/-- The out-degree norm block at point `t` is rows `5000 t … 5000 t + 4999` of the out-degree norm column. -/
theorem outNormBlock_apply (c : Dev nD) (t : Fin cfg1.N) (p : Fin 5000) (r : Fin 100000)
    (hr : r.val = t.val * 5000 + p.val) :
    (iblk1 V c 4 t : FVec Ideal S5000x1 .f32) (ix2 p 0) = (V c main_v30 : NodeCol.Idx → EReal) (ix2 r 0) := by
  obtain ⟨-, -, -, -, -, -, -, -, e0, e1, -⟩ := blockIndex t
  unfold iblk1
  rw [View.read_apply]
  show (V c main_v30 : NodeCol.Idx → EReal) _ = V c main_v30 _
  refine congrArg (V c main_v30 : NodeCol.Idx → EReal) (funext fun a => Fin.ext ?_)
  match a with
  | ⟨0, _⟩ => show win1_4.index t (0 : Fin 2) * 5000 + 1 * p.val = r.val; rw [e0, hr]; omega
  | ⟨1, _⟩ => show win1_4.index t (1 : Fin 2) * 1 + 1 * 0 = 0; rw [e1]

/-- ONE POINT'S BLOCK IS A BLOCK OF THE LAYER. If the five loaded blocks are rows `5000 n …` of the aggregated array and
    of the two norm columns, and the whole weights and bias, then the payload at a block index `j` is the hidden layer
    of the arrays at the array index `i` that sits `5000 n` rows further down, same column. -/
theorem payload_eq_hidden (n : ℕ) (x0 : FVec Ideal S5000x64 .f32) (x2 : FVec Ideal S5000x1 .f32)
    (x7 : FVec Ideal S64x64 .bf16) (x10 : FVec Ideal S1x64 .f32) (x17 : FVec Ideal S5000x1 .f32)
    (A : Nodes.Idx → EReal) (S : NodeCol.Idx → EReal) (W : Weights.Idx → EReal) (B : BiasRow.Idx → EReal)
    (T : NodeCol.Idx → EReal)
    (h0 : ∀ (p : Fin 5000) (k : Fin 64) (r : Fin 100000), r.val = n * 5000 + p.val → x0 (ix2 p k) = A (ix2 r k))
    (h2 : ∀ (p : Fin 5000) (r : Fin 100000), r.val = n * 5000 + p.val → x2 (ix2 p 0) = S (ix2 r 0))
    (h7 : ∀ k q : Fin 64, x7 (ix2 k q) = W (ix2 k q))
    (h10 : ∀ q : Fin 64, x10 (ix2 0 q) = B (ix2 0 q))
    (h17 : ∀ (p : Fin 5000) (r : Fin 100000), r.val = n * 5000 + p.val → x17 (ix2 p 0) = T (ix2 r 0))
    (j : S5000x64.Idx) (i : Nodes.Idx) (hi0 : (i 0).val = n * 5000 + (j 0).val) (hi1 : (i 1).val = (j 1).val) :
    k1_pay1 (F := Ideal) x0 x2 x7 x10 x17 j = hidden A S W B T i := by
  obtain ⟨p, q, rfl⟩ : ∃ (p : Fin 5000) (q : Fin 64), j = ix2 p q := ⟨j 0, j 1, eq_ix2 j⟩
  obtain ⟨r, q', rfl⟩ : ∃ (r : Fin 100000) (q' : Fin 64), i = ix2 r q' := ⟨i 0, i 1, eq_ix2 i⟩
  obtain rfl : q = q' := Fin.ext hi1.symm
  have hr : r.val = n * 5000 + p.val := hi0
  rw [payload_apply, hidden_apply, h2 p r hr, h10 q, h17 p r hr]
  simp only [h0 _ _ r hr, h7]

/-- WHAT POINT `t` WRITES BACK is block `t` of the hidden layer of the arrays the region finds. -/
theorem flushed_eq_hidden (c : Dev nD) (t : Fin cfg1.N) :
    (dat1 (F := Ideal) V c).flushed 5 t = ((cfg1.win 5).blk t).view.read (Elt Ideal)
      (hidden (V c main_v27) (V c main_v29) (V c main_v13) (V c main_v28) (V c main_v30)) := by
  show (cfg1.win 5).cut (grid1.coords t) ((dat1 V c).after 5 t) = _
  rw [after1_5]
  unfold out1_5
  rw [View.canon_unit_zero zeroOffsets]
  simp only [View.ld_unit_zero (S := S5000x64) zeroOffsets, View.ld_unit_zero (S := S5000x1) zeroOffsets,
    View.ld_unit_zero (S := S64x64) zeroOffsets, View.ld_unit_zero (S := S1x64) zeroOffsets]
  obtain ⟨-, -, -, -, -, -, -, -, -, -, e0, e1⟩ := blockIndex t
  funext j
  show k1_pay1 (F := Ideal) (iblk1 V c 0 t) (iblk1 V c 3 t) (iblk1 V c 1 t) (iblk1 V c 2 t) (iblk1 V c 4 t) j
    = hidden (V c main_v27) (V c main_v29) (V c main_v13) (V c main_v28) (V c main_v30) (((cfg1.win 5).blk t).view.emb j)
  refine payload_eq_hidden t.val (iblk1 V c 0 t) (iblk1 V c 3 t) (iblk1 V c 1 t) (iblk1 V c 2 t) (iblk1 V c 4 t)
    (V c main_v27) (V c main_v29) (V c main_v13) (V c main_v28) (V c main_v30)
    (aggBlock_apply V c t) (inNormBlock_apply V c t) (weightBlock_apply V c t) (biasBlock_apply V c t)
    (outNormBlock_apply V c t) j (((cfg1.win 5).blk t).view.emb j) ?_ ?_
  · show win1_5.index t (0 : Fin 2) * 5000 + 1 * (j 0).val = t.val * 5000 + (j 0).val
    rw [e0]; omega
  · show win1_5.index t (1 : Fin 2) * 64 + 1 * (j 1).val = (j 1).val
    rw [e1]; omega

/-- An index of the output array is in point `t`'s block iff each coordinate is in the block's range on its axis. -/
theorem mem_block (t : Fin cfg1.N) (i : Nodes.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v31).slice (win1_5.rect t)).set ↔ _
  rw [View.set_slice_whole, Rect.mem_set_unit]
  exact Iff.rfl

/-- EVERY ROW IS WRITTEN: row `r` of the output lies in the block of point `r / 5000`, and every point writes back. -/
theorem covered (i : Nodes.Idx) :
    ∃ t : Fin cfg1.N, (cfg1.win 5).flush t = true ∧ i ∈ ((cfg1.win 5).blk t).view.set := by
  have hi0 : (i 0).val < 100000 := idx2_lt0 i
  have hi1 : (i 1).val < 64 := idx2_lt1 i
  have hN : cfg1.N = 20 := by decide
  obtain ⟨t, ht⟩ : ∃ t : Fin cfg1.N, t.val = (i 0).val / 5000 := ⟨⟨(i 0).val / 5000, by rw [hN]; omega⟩, rfl⟩
  obtain ⟨-, -, -, -, -, -, -, -, -, -, e0, e1⟩ := blockIndex t
  refine ⟨t, flush1_5 t, ?_⟩
  rw [mem_block]
  intro a
  match a with
  | ⟨0, _⟩ =>
    show win1_5.index t (0 : Fin 2) * 5000 ≤ (i 0).val ∧ (i 0).val < win1_5.index t (0 : Fin 2) * 5000 + 5000
    rw [e0, ht]; omega
  | ⟨1, _⟩ =>
    show win1_5.index t (1 : Fin 2) * 64 ≤ (i 1).val ∧ (i 1).val < win1_5.index t (1 : Fin 2) * 64 + 64
    rw [e1]; omega

end Hidden1

/-- THE OUTPUT ARRAY after the region is the hidden layer of the arrays the region finds: the aggregated rows scaled
    by the in-degree norm, times the weights, plus the bias, clamped at zero, scaled by the out-degree norm. -/
theorem region1_value (c : Dev nD) :
    (dat1 (F := Ideal) V c).arrAt 5 cfg1.N
      = hidden (V c main_v27) (V c main_v29) (V c main_v13) (V c main_v28) (V c main_v30) :=
  (dat1 (F := Ideal) V c).arrAt_eq_of_cover 5
    (hidden (V c main_v27) (V c main_v29) (V c main_v13) (V c main_v28) (V c main_v30))
    (fun t _ => Hidden1.flushed_eq_hidden V c t) Hidden1.covered

end Cert.GraphConv.Ker

end
-- ==== Proof.RegionHidden2.lean ====
import proofs.«418122_j7739531067740_3_alg».proof.Proof.Gen.KernelIdeal.Frame
import proofs.«418122_j7739531067740_3_alg».proof.Proof.Layers
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.GraphConv.Ker

open Idealize.ShloMosaic Idealize.ShloMosaic.TcCoe Idealize.SL.Sem Idealize.ShloMosaic.ValueIdx
open Cert.KernelIdeal Cert.KernelIdeal.Gen Cert.GraphConv

variable (V : (c : Dev nD) → (b : Ref sig .tc) → Buf (Elt Ideal) ((c : Thread nD τ).loc b))

/-! # Region 2: the second hidden layer

The same layer shape as the first hidden layer, on the second aggregation's rows and the second layer's weights and
bias. The region runs over 20 grid points. At point `t` it loads rows `5000 t … 5000 t + 4999` of the aggregated
features and of the two degree-norm columns, together with the whole weight matrix and bias row, and stores rows
`5000 t … 5000 t + 4999` of its output. Entry `(p, q)` of the stored block depends on row `p` of the aggregated block,
on the two norms of that row, on column `q` of the weights and on the bias at `q`. So the 20 stored blocks are the 20
row blocks of one array: the hidden layer of the arrays the region finds. -/

namespace Hidden2

/-- A column broadcast across the columns: a `[a, 1]` array broadcast to `[a, b]` reads, at `(p, c)`, the
    column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand's index of the block product keeps the output's row … -/
theorem lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … and takes the contraction index as its column; -/
theorem lhs_col (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- the right operand's index takes the contraction index as its row … -/
theorem rhs_row (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- … and keeps the output's column. -/
theorem rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The block product into the zero accumulator, read at `(p, q)`: row `p` of the left block against column `q` of
    the right one, summed over the 64 inner indices. -/
theorem blockProduct_apply (l : FVec Ideal S5000x64 .bf16) (r : FVec Ideal S64x64 .bf16) (p : Fin 5000) (q : Fin 64) :
    matmul dot_S5000x64_S64x64_S5000x64_1_0_0_1_n_n none l r (constant S5000x64 .f32 0x00000000#32) (ix2 p q)
      = ∑ k : Fin 64, l (ix2 p k) * r (ix2 k q) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_row _ _
    | ⟨1, _⟩ => exact (lhs_col _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_row _ _).trans hk
    | ⟨1, _⟩ => exact rhs_col _ _)
  rw [el, er]

/-- THE PAYLOAD AT AN INDEX. Entry `(p, q)` of what one grid point computes from its blocks: row `p` of the
    aggregated block, scaled by the row's in-degree norm, against column `q` of the weights, plus the bias at `q`,
    clamped below at zero, times the row's out-degree norm. -/
theorem payload_apply (x0 : FVec Ideal S5000x64 .f32) (x2 : FVec Ideal S5000x1 .f32) (x7 : FVec Ideal S64x64 .bf16)
    (x10 : FVec Ideal S1x64 .f32) (x17 : FVec Ideal S5000x1 .f32) (p : Fin 5000) (q : Fin 64) :
    k2_pay1 (F := Ideal) x0 x2 x7 x10 x17 (ix2 p q)
      = max ((∑ k : Fin 64, (x0 (ix2 p k) * x2 (ix2 p 0)) * x7 (ix2 k q)) + x10 (ix2 0 q)) 0 * x17 (ix2 p 0) := by
  unfold k2_pay1
  simp only [shapeCast_self]
  rw [mulf_apply, maximumf_apply, addf_apply, broadcast_apply, blockProduct_apply, broadcastTo_1b_ab_apply,
    broadcastTo_a1_ab_apply]
  simp only [truncf_apply, mulf_apply, broadcastTo_a1_ab_apply]
  have hzero : (FloatOps.ofBits (F := Ideal) .f32 0x00000000#32 : EReal) = 0 := Ideal.ofBits_zero_f32
  rw [hzero]

/-- The zero offsets of a whole-block access, spelt as a constant function. -/
theorem zeroOffsets : (![0, 0] : Fin 2 → Nat) = fun _ => 0 := funext fun a => by fin_cases a <;> rfl

/-- WHERE EACH WINDOW'S BLOCK SITS at grid point `t`, decided once over the 20 points: the aggregated rows, the two
    norm columns and the output move down the rows with the point (block row `t`, block column 0); the weights and the
    bias row stay at block (0, 0). -/
theorem blockIndex : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- The aggregated block at point `t` is rows `5000 t … 5000 t + 4999` of the aggregated array. -/
theorem aggBlock_apply (c : Dev nD) (t : Fin cfg2.N) (p : Fin 5000) (k : Fin 64) (r : Fin 100000)
    (hr : r.val = t.val * 5000 + p.val) :
    (iblk2 V c 0 t : FVec Ideal S5000x64 .f32) (ix2 p k) = (V c main_v41 : Nodes.Idx → EReal) (ix2 r k) := by
  obtain ⟨e0, e1, -⟩ := blockIndex t
  unfold iblk2
  rw [View.read_apply]
  show (V c main_v41 : Nodes.Idx → EReal) _ = V c main_v41 _
  refine congrArg (V c main_v41 : Nodes.Idx → EReal) (funext fun a => Fin.ext ?_)
  match a with
  | ⟨0, _⟩ => show win2_0.index t (0 : Fin 2) * 5000 + 1 * p.val = r.val; rw [e0, hr]; omega
  | ⟨1, _⟩ => show win2_0.index t (1 : Fin 2) * 64 + 1 * k.val = k.val; rw [e1]; omega

/-- The weights' block at every point is the whole weight matrix. -/
theorem weightBlock_apply (c : Dev nD) (t : Fin cfg2.N) (k q : Fin 64) :
    (iblk2 V c 1 t : FVec Ideal S64x64 .bf16) (ix2 k q) = (V c main_v14 : Weights.Idx → EReal) (ix2 k q) := by
  obtain ⟨-, -, e0, e1, -⟩ := blockIndex t
  unfold iblk2
  rw [View.read_apply]
  show (V c main_v14 : Weights.Idx → EReal) _ = V c main_v14 _
  refine congrArg (V c main_v14 : Weights.Idx → EReal) (funext fun a => Fin.ext ?_)
  match a with
  | ⟨0, _⟩ => show win2_1.index t (0 : Fin 2) * 64 + 1 * k.val = k.val; rw [e0]; omega
  | ⟨1, _⟩ => show win2_1.index t (1 : Fin 2) * 64 + 1 * q.val = q.val; rw [e1]; omega

/-- The bias block at every point is the whole bias row. -/
theorem biasBlock_apply (c : Dev nD) (t : Fin cfg2.N) (q : Fin 64) :
    (iblk2 V c 2 t : FVec Ideal S1x64 .f32) (ix2 0 q) = (V c main_v42 : BiasRow.Idx → EReal) (ix2 0 q) := by
  obtain ⟨-, -, -, -, e0, e1, -⟩ := blockIndex t
  unfold iblk2
  rw [View.read_apply]
  show (V c main_v42 : BiasRow.Idx → EReal) _ = V c main_v42 _
  refine congrArg (V c main_v42 : BiasRow.Idx → EReal) (funext fun a => Fin.ext ?_)
  match a with
  | ⟨0, _⟩ => show win2_2.index t (0 : Fin 2) * 1 + 1 * 0 = 0; rw [e0]
  | ⟨1, _⟩ => show win2_2.index t (1 : Fin 2) * 64 + 1 * q.val = q.val; rw [e1]; omega

/-- The in-degree norm block at point `t` is rows `5000 t … 5000 t + 4999` of the in-degree norm column. -/
theorem inNormBlock_apply (c : Dev nD) (t : Fin cfg2.N) (p : Fin 5000) (r : Fin 100000)
    (hr : r.val = t.val * 5000 + p.val) :
    (iblk2 V c 3 t : FVec Ideal S5000x1 .f32) (ix2 p 0) = (V c main_v43 : NodeCol.Idx → EReal) (ix2 r 0) := by
  obtain ⟨-, -, -, -, -, -, e0, e1, -⟩ := blockIndex t
  unfold iblk2
  rw [View.read_apply]
  show (V c main_v43 : NodeCol.Idx → EReal) _ = V c main_v43 _
  refine congrArg (V c main_v43 : NodeCol.Idx → EReal) (funext fun a => Fin.ext ?_)
  match a with
  | ⟨0, _⟩ => show win2_3.index t (0 : Fin 2) * 5000 + 1 * p.val = r.val; rw [e0, hr]; omega
  | ⟨1, _⟩ => show win2_3.index t (1 : Fin 2) * 1 + 1 * 0 = 0; rw [e1]

/-- The out-degree norm block at point `t` is rows `5000 t … 5000 t + 4999` of the out-degree norm column. -/
theorem outNormBlock_apply (c : Dev nD) (t : Fin cfg2.N) (p : Fin 5000) (r : Fin 100000)
    (hr : r.val = t.val * 5000 + p.val) :
    (iblk2 V c 4 t : FVec Ideal S5000x1 .f32) (ix2 p 0) = (V c main_v44 : NodeCol.Idx → EReal) (ix2 r 0) := by
  obtain ⟨-, -, -, -, -, -, -, -, e0, e1, -⟩ := blockIndex t
  unfold iblk2
  rw [View.read_apply]
  show (V c main_v44 : NodeCol.Idx → EReal) _ = V c main_v44 _
  refine congrArg (V c main_v44 : NodeCol.Idx → EReal) (funext fun a => Fin.ext ?_)
  match a with
  | ⟨0, _⟩ => show win2_4.index t (0 : Fin 2) * 5000 + 1 * p.val = r.val; rw [e0, hr]; omega
  | ⟨1, _⟩ => show win2_4.index t (1 : Fin 2) * 1 + 1 * 0 = 0; rw [e1]

/-- ONE POINT'S BLOCK IS A BLOCK OF THE LAYER. If the five loaded blocks are rows `5000 n …` of the aggregated array and
    of the two norm columns, and the whole weights and bias, then the payload at a block index `j` is the hidden layer
    of the arrays at the array index `i` that sits `5000 n` rows further down, same column. -/
theorem payload_eq_hidden (n : ℕ) (x0 : FVec Ideal S5000x64 .f32) (x2 : FVec Ideal S5000x1 .f32)
    (x7 : FVec Ideal S64x64 .bf16) (x10 : FVec Ideal S1x64 .f32) (x17 : FVec Ideal S5000x1 .f32)
    (A : Nodes.Idx → EReal) (S : NodeCol.Idx → EReal) (W : Weights.Idx → EReal) (B : BiasRow.Idx → EReal)
    (T : NodeCol.Idx → EReal)
    (h0 : ∀ (p : Fin 5000) (k : Fin 64) (r : Fin 100000), r.val = n * 5000 + p.val → x0 (ix2 p k) = A (ix2 r k))
    (h2 : ∀ (p : Fin 5000) (r : Fin 100000), r.val = n * 5000 + p.val → x2 (ix2 p 0) = S (ix2 r 0))
    (h7 : ∀ k q : Fin 64, x7 (ix2 k q) = W (ix2 k q))
    (h10 : ∀ q : Fin 64, x10 (ix2 0 q) = B (ix2 0 q))
    (h17 : ∀ (p : Fin 5000) (r : Fin 100000), r.val = n * 5000 + p.val → x17 (ix2 p 0) = T (ix2 r 0))
    (j : S5000x64.Idx) (i : Nodes.Idx) (hi0 : (i 0).val = n * 5000 + (j 0).val) (hi1 : (i 1).val = (j 1).val) :
    k2_pay1 (F := Ideal) x0 x2 x7 x10 x17 j = hidden A S W B T i := by
  obtain ⟨p, q, rfl⟩ : ∃ (p : Fin 5000) (q : Fin 64), j = ix2 p q := ⟨j 0, j 1, eq_ix2 j⟩
  obtain ⟨r, q', rfl⟩ : ∃ (r : Fin 100000) (q' : Fin 64), i = ix2 r q' := ⟨i 0, i 1, eq_ix2 i⟩
  obtain rfl : q = q' := Fin.ext hi1.symm
  have hr : r.val = n * 5000 + p.val := hi0
  rw [payload_apply, hidden_apply, h2 p r hr, h10 q, h17 p r hr]
  simp only [h0 _ _ r hr, h7]

/-- WHAT POINT `t` WRITES BACK is block `t` of the hidden layer of the arrays the region finds. -/
theorem flushed_eq_hidden (c : Dev nD) (t : Fin cfg2.N) :
    (dat2 (F := Ideal) V c).flushed 5 t = ((cfg2.win 5).blk t).view.read (Elt Ideal)
      (hidden (V c main_v41) (V c main_v43) (V c main_v14) (V c main_v42) (V c main_v44)) := by
  show (cfg2.win 5).cut (grid2.coords t) ((dat2 V c).after 5 t) = _
  rw [after2_5]
  unfold out2_5
  rw [View.canon_unit_zero zeroOffsets]
  simp only [View.ld_unit_zero (S := S5000x64) zeroOffsets, View.ld_unit_zero (S := S5000x1) zeroOffsets,
    View.ld_unit_zero (S := S64x64) zeroOffsets, View.ld_unit_zero (S := S1x64) zeroOffsets]
  obtain ⟨-, -, -, -, -, -, -, -, -, -, e0, e1⟩ := blockIndex t
  funext j
  show k2_pay1 (F := Ideal) (iblk2 V c 0 t) (iblk2 V c 3 t) (iblk2 V c 1 t) (iblk2 V c 2 t) (iblk2 V c 4 t) j
    = hidden (V c main_v41) (V c main_v43) (V c main_v14) (V c main_v42) (V c main_v44) (((cfg2.win 5).blk t).view.emb j)
  refine payload_eq_hidden t.val (iblk2 V c 0 t) (iblk2 V c 3 t) (iblk2 V c 1 t) (iblk2 V c 2 t) (iblk2 V c 4 t)
    (V c main_v41) (V c main_v43) (V c main_v14) (V c main_v42) (V c main_v44)
    (aggBlock_apply V c t) (inNormBlock_apply V c t) (weightBlock_apply V c t) (biasBlock_apply V c t)
    (outNormBlock_apply V c t) j (((cfg2.win 5).blk t).view.emb j) ?_ ?_
  · show win2_5.index t (0 : Fin 2) * 5000 + 1 * (j 0).val = t.val * 5000 + (j 0).val
    rw [e0]; omega
  · show win2_5.index t (1 : Fin 2) * 64 + 1 * (j 1).val = (j 1).val
    rw [e1]; omega

/-- An index of the output array is in point `t`'s block iff each coordinate is in the block's range on its axis. -/
theorem mem_block (t : Fin cfg2.N) (i : Nodes.Idx) :
    i ∈ ((cfg2.win 5).blk t).view.set ↔ ∀ a : Fin 2, win2_5.index t a * S5000x64.size a ≤ (i a).val
      ∧ (i a).val < win2_5.index t a * S5000x64.size a + S5000x64.size a := by
  show i ∈ ((View.whole main_v45).slice (win2_5.rect t)).set ↔ _
  rw [View.set_slice_whole, Rect.mem_set_unit]
  exact Iff.rfl

/-- EVERY ROW IS WRITTEN: row `r` of the output lies in the block of point `r / 5000`, and every point writes back. -/
theorem covered (i : Nodes.Idx) :
    ∃ t : Fin cfg2.N, (cfg2.win 5).flush t = true ∧ i ∈ ((cfg2.win 5).blk t).view.set := by
  have hi0 : (i 0).val < 100000 := idx2_lt0 i
  have hi1 : (i 1).val < 64 := idx2_lt1 i
  have hN : cfg2.N = 20 := by decide
  obtain ⟨t, ht⟩ : ∃ t : Fin cfg2.N, t.val = (i 0).val / 5000 := ⟨⟨(i 0).val / 5000, by rw [hN]; omega⟩, rfl⟩
  obtain ⟨-, -, -, -, -, -, -, -, -, -, e0, e1⟩ := blockIndex t
  refine ⟨t, flush2_5 t, ?_⟩
  rw [mem_block]
  intro a
  match a with
  | ⟨0, _⟩ =>
    show win2_5.index t (0 : Fin 2) * 5000 ≤ (i 0).val ∧ (i 0).val < win2_5.index t (0 : Fin 2) * 5000 + 5000
    rw [e0, ht]; omega
  | ⟨1, _⟩ =>
    show win2_5.index t (1 : Fin 2) * 64 ≤ (i 1).val ∧ (i 1).val < win2_5.index t (1 : Fin 2) * 64 + 64
    rw [e1]; omega

end Hidden2

/-- THE OUTPUT ARRAY after the region is the hidden layer of the arrays the region finds: the aggregated rows scaled
    by the in-degree norm, times the weights, plus the bias, clamped at zero, scaled by the out-degree norm. -/
theorem region2_value (c : Dev nD) :
    (dat2 (F := Ideal) V c).arrAt 5 cfg2.N
      = hidden (V c main_v41) (V c main_v43) (V c main_v14) (V c main_v42) (V c main_v44) :=
  (dat2 (F := Ideal) V c).arrAt_eq_of_cover 5
    (hidden (V c main_v41) (V c main_v43) (V c main_v14) (V c main_v42) (V c main_v44))
    (fun t _ => Hidden2.flushed_eq_hidden V c t) Hidden2.covered

end Cert.GraphConv.Ker

end
-- ==== Proof.RegionLast.lean ====
import proofs.«418122_j7739531067740_3_alg».proof.Proof.Gen.KernelIdeal.Frame
import proofs.«418122_j7739531067740_3_alg».proof.Proof.Layers
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.GraphConv.Ker

open Idealize.ShloMosaic Idealize.ShloMosaic.TcCoe Idealize.SL.Sem Idealize.ShloMosaic.ValueIdx
open Cert.KernelIdeal Cert.KernelIdeal.Gen Cert.GraphConv

variable (V : (c : Dev nD) → (b : Ref sig .tc) → Buf (Elt Ideal) ((c : Thread nD τ).loc b))

namespace Last

/-- The zero offsets of a whole-block access, as the constant function. -/
theorem offsets_zero : (![0, 0] : Fin 2 → Nat) = fun _ => 0 := funext fun a => by fin_cases a <;> rfl

/-- A column `[a, 1]` broadcast along the rows to `[a, b]` reads, at `(p, c)`, the column's entry of row `p`. -/
theorem bcast_column_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The product of a row block with the weights -/

/-- The left operand's index at output `i` and contraction position `q` keeps `i`'s row … -/
theorem lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
/-- … and has the contraction position as its column; -/
theorem lhs_contr (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- the right operand's has the contraction position as its row … -/
theorem rhs_contr (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- … and keeps `i`'s column. -/
theorem rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The product into the zero block, entry `(p, q)`: row `p` of the left operand against column `q` of the right. -/
theorem matmul_entry (a : FVec Ideal S5000x64 .bf16) (w : FVec Ideal S64x64 .bf16) (p : Fin 5000) (q : Fin 64) :
    matmul dot_S5000x64_S64x64_S5000x64_1_0_0_1_n_n none a w (constant (F := Ideal) S5000x64 .f32 0x00000000#32) (ix2 p q)
      = ∑ k : Fin 64, a (ix2 p k) * w (ix2 k q) := by
  simp only [matmul]
  rw [Ideal.matmul_constant_zero_apply,
    ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q)
      ((contrEquiv1 dot_S5000x64_S64x64_S5000x64_1_0_0_1_n_n 64 rfl rfl).symm k) = ix2 p k := funext fun ax => Fin.ext (by
    match ax with
    | ⟨0, _⟩ => exact lhs_row _ _
    | ⟨1, _⟩ => exact (lhs_contr _ _).trans hk)
  have er : dot_S5000x64_S64x64_S5000x64_1_0_0_1_n_n.rhsIdx (ix2 p q)
      ((contrEquiv1 dot_S5000x64_S64x64_S5000x64_1_0_0_1_n_n 64 rfl rfl).symm k) = ix2 k q := funext fun ax => Fin.ext (by
    match ax with
    | ⟨0, _⟩ => exact (rhs_contr _ _).trans hk
    | ⟨1, _⟩ => exact rhs_col _ _)
  rw [el, er]

/-! ## One block -/

/-- The block the last kernel stores, entry by entry: row `p` of the aggregated block, scaled by its node's norm,
    against column `q` of the weights, plus the bias at `q`. -/
theorem affine_payload_apply (v0 : Vec Ideal S5000x64 .f32) (v2 : Vec Ideal S5000x1 .f32) (v7 : Vec Ideal S64x64 .bf16)
    (v10 : Vec Ideal S1x64 .f32) (p : Fin 5000) (q : Fin 64) :
    k3_pay1 v0 v2 v7 v10 (ix2 p q) = (∑ k : Fin 64, (v0 (ix2 p k) * v2 (ix2 p 0)) * v7 (ix2 k q)) + v10 (ix2 0 q) := by
  unfold k3_pay1
  rw [addf_apply, matmul_entry, broadcastTo_1b_ab_apply]
  simp only [shapeCast_self, truncf_apply, mulf_apply, bcast_column_apply]

/-- When `x0` is rows `5000 b …` of the aggregated features `A`, `x2` the same rows of the norm column `S`, `x7` the
    weights and `x10` the bias row, the stored block is those rows of `affine A S W B`: entry `j` of the block is entry
    `i` of the array, `i` being `j` moved down `5000 b` rows. -/
theorem affine_entry (A : Nodes.Idx → EReal) (S : NodeCol.Idx → EReal) (W : Weights.Idx → EReal) (B : BiasRow.Idx → EReal)
    (x0 : Vec Ideal S5000x64 .f32) (x2 : Vec Ideal S5000x1 .f32) (x7 : Vec Ideal S64x64 .bf16) (x10 : Vec Ideal S1x64 .f32) (b : ℕ)
    (h0 : ∀ (j : S5000x64.Idx) (i : Nodes.Idx), (i 0).val = b * 5000 + (j 0).val → (i 1).val = (j 1).val → x0 j = A i)
    (h2 : ∀ (j : S5000x1.Idx) (i : NodeCol.Idx), (i 0).val = b * 5000 + (j 0).val → x2 j = S i)
    (h7 : x7 = W) (h10 : x10 = B)
    (j : S5000x64.Idx) (i : Nodes.Idx) (hi0 : (i 0).val = b * 5000 + (j 0).val) (hi1 : (i 1).val = (j 1).val) :
    k3_pay1 x0 x2 x7 x10 j = affine A S W B i := by
  obtain ⟨p, q, rfl⟩ : ∃ (p : Fin 5000) (q : Fin 64), j = ix2 p q := ⟨j 0, j 1, eq_ix2 j⟩
  obtain ⟨r, s, rfl⟩ : ∃ (r : Fin 100000) (s : Fin 64), i = ix2 r s := ⟨i 0, i 1, eq_ix2 i⟩
  obtain rfl : s = q := Fin.ext hi1
  subst h7 h10
  rw [affine_payload_apply, affine_apply, h2 (ix2 p 0) (ix2 r 0) hi0]
  refine congrArg (· + _) (Finset.sum_congr rfl fun k _ => ?_)
  rw [h0 (ix2 p k) (ix2 r k) hi0 rfl]

/-! ## The blocks in the arrays -/

/-- At point `t` the aggregated features', the norm column's and the output's block is row block `t`, column block `0`;
    the weights' and the bias row's is the whole array (decided over the grid's 20 points). -/
theorem block_indices : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- The aggregated features' block at point `t` is rows `5000 t …` of the array. -/
theorem aggregated_block (c : Dev nD) (t : Fin cfg3.N) (j : S5000x64.Idx) (i : Nodes.Idx)
    (hi0 : (i 0).val = t.val * 5000 + (j 0).val) (hi1 : (i 1).val = (j 1).val) :
    (iblk3 V c 0 t : Vec Ideal S5000x64 .f32) j = (V c main_v55 : Nodes.Idx → EReal) i := by
  obtain ⟨e0, e1, -⟩ := block_indices t
  show V c main_v55 (((cfg3.win 0).blk t).view.emb j) = V c main_v55 i
  refine congrArg _ (funext fun a => Fin.ext ?_)
  match a with
  | ⟨0, _⟩ => show win3_0.index t (0 : Fin 2) * 5000 + 1 * (j 0).val = (i 0).val; rw [e0, hi0]; omega
  | ⟨1, _⟩ => show win3_0.index t (1 : Fin 2) * 64 + 1 * (j 1).val = (i 1).val; rw [e1, hi1]; omega

/-- The weights' block at every point is the whole weights array. -/
theorem weights_block (c : Dev nD) (t : Fin cfg3.N) :
    (iblk3 V c 1 t : Vec Ideal S64x64 .bf16) = (V c main_v15 : Weights.Idx → EReal) := by
  obtain ⟨-, -, e0, e1, -⟩ := block_indices t
  funext j
  show V c main_v15 (((cfg3.win 1).blk t).view.emb j) = V c main_v15 j
  refine congrArg _ (funext fun a => Fin.ext ?_)
  match a with
  | ⟨0, _⟩ => show win3_1.index t (0 : Fin 2) * 64 + 1 * (j 0).val = (j 0).val; rw [e0]; omega
  | ⟨1, _⟩ => show win3_1.index t (1 : Fin 2) * 64 + 1 * (j 1).val = (j 1).val; rw [e1]; omega

/-- The bias row's block at every point is the whole row. -/
theorem bias_block (c : Dev nD) (t : Fin cfg3.N) :
    (iblk3 V c 2 t : Vec Ideal S1x64 .f32) = (V c main_v56 : BiasRow.Idx → EReal) := by
  obtain ⟨-, -, -, -, e0, e1, -⟩ := block_indices t
  funext j
  show V c main_v56 (((cfg3.win 2).blk t).view.emb j) = V c main_v56 j
  refine congrArg _ (funext fun a => Fin.ext ?_)
  match a with
  | ⟨0, _⟩ => show win3_2.index t (0 : Fin 2) * 1 + 1 * (j 0).val = (j 0).val; rw [e0]; omega
  | ⟨1, _⟩ => show win3_2.index t (1 : Fin 2) * 64 + 1 * (j 1).val = (j 1).val; rw [e1]; omega

/-- The norm column's block at point `t` is rows `5000 t …` of the column. -/
theorem norm_block (c : Dev nD) (t : Fin cfg3.N) (j : S5000x1.Idx) (i : NodeCol.Idx)
    (hi0 : (i 0).val = t.val * 5000 + (j 0).val) :
    (iblk3 V c 3 t : Vec Ideal S5000x1 .f32) j = (V c main_v57 : NodeCol.Idx → EReal) i := by
  obtain ⟨-, -, -, -, -, -, e0, e1, -⟩ := block_indices t
  show V c main_v57 (((cfg3.win 3).blk t).view.emb j) = V c main_v57 i
  refine congrArg _ (funext fun a => Fin.ext ?_)
  match a with
  | ⟨0, _⟩ => show win3_3.index t (0 : Fin 2) * 5000 + 1 * (j 0).val = (i 0).val; rw [e0, hi0]; omega
  | ⟨1, _⟩ =>
    show win3_3.index t (1 : Fin 2) * 1 + 1 * (j 1).val = (i 1).val
    have hj : (j 1).val < 1 := (j 1).isLt
    have hi : (i 1).val < 1 := (i 1).isLt
    rw [e1]; omega

/-- What point `t` writes back is row block `t` of the affine stage of the region's input arrays. -/
theorem affine_flushed (c : Dev nD) (t : Fin cfg3.N) :
    (dat3 (F := Ideal) V c).flushed 4 t
      = ((cfg3.win 4).blk t).view.read (Elt Ideal) (affine (V c main_v55) (V c main_v57) (V c main_v15) (V c main_v56)) := by
  show (cfg3.win 4).cut (grid3.coords t) ((dat3 V c).after 4 t) = _
  rw [after3_4]
  unfold out3_4
  rw [View.canon_unit_zero offsets_zero]
  simp only [View.ld_unit_zero (S := S5000x64) offsets_zero, View.ld_unit_zero (S := S5000x1) offsets_zero,
    View.ld_unit_zero (S := S64x64) offsets_zero, View.ld_unit_zero (S := S1x64) offsets_zero]
  funext j
  obtain ⟨-, -, -, -, -, -, -, -, e0, e1⟩ := block_indices t
  show k3_pay1 (iblk3 V c 0 t) (iblk3 V c 3 t) (iblk3 V c 1 t) (iblk3 V c 2 t) j
    = affine (V c main_v55) (V c main_v57) (V c main_v15) (V c main_v56) (((cfg3.win 4).blk t).view.emb j)
  refine affine_entry (V c main_v55) (V c main_v57) (V c main_v15) (V c main_v56)
    (iblk3 V c 0 t) (iblk3 V c 3 t) (iblk3 V c 1 t) (iblk3 V c 2 t) t.val
    (fun j i h0 h1 => aggregated_block V c t j i h0 h1) (fun j i h0 => norm_block V c t j i h0)
    (weights_block V c t) (bias_block V c t) j _ ?_ ?_
  · show win3_4.index t (0 : Fin 2) * 5000 + 1 * (j 0).val = t.val * 5000 + (j 0).val; rw [e0]; omega
  · show win3_4.index t (1 : Fin 2) * 64 + 1 * (j 1).val = (j 1).val; rw [e1]; omega

/-! ## The whole array -/

/-- An index of the output array is in point `t`'s block iff each coordinate is in the block's range on its axis. -/
theorem mem_out_block (t : Fin cfg3.N) (i : Nodes.Idx) :
    i ∈ ((cfg3.win 4).blk t).view.set ↔ ∀ a : Fin 2, win3_4.index t a * S5000x64.size a ≤ (i a).val
      ∧ (i a).val < win3_4.index t a * S5000x64.size a + S5000x64.size a := by
  show i ∈ ((View.whole main_v58).slice (win3_4.rect t)).set ↔ _
  rw [View.set_slice_whole, Rect.mem_set_unit]
  exact Iff.rfl

/-- Row `r` is in the block of point `r / 5000`: the 20 row blocks tile the array. -/
theorem affine_cover (i : Nodes.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  have hN : cfg3.N = 20 := N_3
  obtain ⟨t, ht⟩ : ∃ t : Fin cfg3.N, t.val = (i 0).val / 5000 := ⟨⟨(i 0).val / 5000, by rw [hN]; omega⟩, rfl⟩
  obtain ⟨-, -, -, -, -, -, -, -, e0, e1⟩ := block_indices t
  refine ⟨t, flush3_4 t, ?_⟩
  rw [mem_out_block]
  intro a
  match a with
  | ⟨0, _⟩ =>
    show win3_4.index t (0 : Fin 2) * 5000 ≤ (i 0).val ∧ (i 0).val < win3_4.index t (0 : Fin 2) * 5000 + 5000
    rw [e0, ht]; omega
  | ⟨1, _⟩ =>
    show win3_4.index t (1 : Fin 2) * 64 ≤ (i 1).val ∧ (i 1).val < win3_4.index t (1 : Fin 2) * 64 + 64
    rw [e1]; omega

end Last

/-- After the region the output array is the affine stage of the aggregated features: every row scaled by its node's
    norm, multiplied by the weights, plus the bias. -/
theorem region3_value (c : Dev nD) :
    (dat3 (F := Ideal) V c).arrAt 4 cfg3.N = affine (V c main_v55) (V c main_v57) (V c main_v15) (V c main_v56) :=
  (dat3 V c).arrAt_eq_of_cover 4 _ (fun t _ => Last.affine_flushed V c t) Last.affine_cover

end Cert.GraphConv.Ker

end
-- ==== Proof.RefValue.lean ====
import proofs.«418122_j7739531067740_3_alg».proof.Proof.Gen.ReferenceIdeal.Read
import proofs.«418122_j7739531067740_3_alg».proof.Proof.Layers
import Idealize.ShloMosaic.Lib.Pipeline.Value
import Idealize.ShloMosaic.Lib.ValueIdx
import Idealize.ShloMosaic.PureOps.Ideal.Laws

noncomputable section

namespace Cert.GraphConv.Ref

open Idealize.ShloMosaic Idealize.ShloMosaic.TcCoe Idealize.SL.Sem Idealize.ShloMosaic.ValueIdx
open Cert.ReferenceIdeal Cert.ReferenceIdeal.Gen Cert.ReferenceIdeal.Read Cert.GraphConv

/-- The aggregation step: gather each edge's source row (a negative index counts from the end of the table) and add
    every gathered row into its edge's destination row, starting from zero. -/
def gatherSum (src dst : IVec S1000000 32) (h : FVec Ideal S100000x64 .f32) : FVec Ideal S100000x64 .f32 :=
  Host.scatterAdd (F := Ideal) scatter_S100000x64_S1000000x1_S1000000x64_1_0_0_1
    (broadcastInDim S100000x64 ![] bcast_S_S100000x64 (constant (F := Ideal) S_ .f32 0x00000000#32))
    (broadcastInDim S1000000x1 ![0] bcast_S1000000_S1000000x1_0 dst)
    (Host.gather gather_S100000x64_S1000000x1_S1000000x64_1_0_n_n_0_1_164 h
      (broadcastInDim S1000000x1 ![0] bcast_S1000000_S1000000x1_0
        (select (cmpi .slt src (broadcastInDim S1000000 ![] bcast_S_S1000000 (constantI S_ 32 0#32)))
          (addi src (broadcastInDim S1000000 ![] bcast_S_S1000000 (constantI S_ 32 100000#32))) src)))

/-- The degree norm of an index list: the number of edges at each node (a one added per edge, from zero), at least
    one, to the power minus one half. -/
def degNorm (idx : IVec S1000000 32) : FVec Ideal S100000 .f32 :=
  Host.rsqrt (F := Ideal) (maximumf
    (Host.scatterAdd (F := Ideal) scatter_S100000_S1000000x1_S1000000_n_0_0_1
      (broadcastInDim S100000 ![] bcast_S_S100000 (constant (F := Ideal) S_ .f32 0x00000000#32))
      (broadcastInDim S1000000x1 ![0] bcast_S1000000_S1000000x1_0 idx)
      (broadcastInDim S1000000 ![] bcast_S_S1000000 (constant (F := Ideal) S_ .f32 0x3F800000#32)))
    (broadcastInDim S100000 ![] bcast_S_S100000 (constant (F := Ideal) S_ .f32 0x3F800000#32)))

/-! ### The degree norms

The reference computes each norm by three operations (count, clamp at one, inverse square root) on broadcast
constants; spelled out, they are the term `degNorm` names. -/

/-- The out-degree norm: the norm of the source index list. -/
theorem norm_src (x1 : IVec S1000000 32) : val_main_v6 (F := Ideal) x1 = degNorm x1 := by
  unfold val_main_v6 val_main_v5 val_main_v4 val_main_v3 val_main_v2 val_main_v1 val_main_v0
    val_main_cst val_main_cst_0 val_main_cst_1 degNorm
  rfl

/-- The in-degree norm: the norm of the destination index list. -/
theorem norm_dst (x2 : IVec S1000000 32) : val_main_v13 (F := Ideal) x2 = degNorm x2 := by
  unfold val_main_v13 val_main_v12 val_main_v11 val_main_v10 val_main_v9 val_main_v8 val_main_v7
    val_main_cst_2 val_main_cst_3 val_main_cst_4 degNorm
  rfl

/-! ### The three aggregations

Each aggregation is a gather of the current features at the wrapped source indices followed by a scatter-add into
zeros at the destination indices; spelled out, the reference's thirteen operations are the term `gatherSum` names,
applied to the features entering the aggregation. -/

/-- The first aggregation acts on the scaled input. -/
theorem agg_first (x0 : FVec Ideal S100000x64 .f32) (x1 x2 : IVec S1000000 32) :
    val_main_v26 (F := Ideal) x0 x1 x2 = gatherSum x1 x2 (val_main_v16 (F := Ideal) x0 x1) := by
  unfold val_main_v26 val_main_v25 val_main_v24 val_main_cst_6 val_main_v23 val_main_v22 val_main_v21 val_main_v20
    val_main_v19 val_main_c_5 val_main_v18 val_main_v17 val_main_c gatherSum
  rfl

/-- The second aggregation acts on the first hidden layer's output. -/
theorem agg_second (x0 : FVec Ideal S100000x64 .f32) (x1 x2 : IVec S1000000 32) (x3 : FVec Ideal S64x64 .f32)
    (x4 : FVec Ideal S64 .f32) :
    val_main_v47 (F := Ideal) x0 x1 x2 x3 x4 = gatherSum x1 x2 (val_main_v37 (F := Ideal) x0 x1 x2 x3 x4) := by
  unfold val_main_v47 val_main_v46 val_main_v45 val_main_cst_9 val_main_v44 val_main_v43 val_main_v42 val_main_v41
    val_main_v40 val_main_c_8 val_main_v39 val_main_v38 val_main_c_7 gatherSum
  rfl

/-- The third aggregation acts on the second hidden layer's output. -/
theorem agg_third (x0 : FVec Ideal S100000x64 .f32) (x1 x2 : IVec S1000000 32) (x3 : FVec Ideal S64x64 .f32)
    (x4 : FVec Ideal S64 .f32) (x5 : FVec Ideal S64x64 .f32) (x6 : FVec Ideal S64 .f32) :
    val_main_v68 (F := Ideal) x0 x1 x2 x3 x4 x5 x6
      = gatherSum x1 x2 (val_main_v58 (F := Ideal) x0 x1 x2 x3 x4 x5 x6) := by
  unfold val_main_v68 val_main_v67 val_main_v66 val_main_cst_12 val_main_v65 val_main_v64 val_main_v63 val_main_v62
    val_main_v61 val_main_c_11 val_main_v60 val_main_v59 val_main_c_10 gatherSum
  rfl

/-! ### The dense stages, entry by entry -/

/-- The input stage: every row of the input times its node's out-degree norm. -/
theorem stage_input (x0 : FVec Ideal S100000x64 .f32) (x1 : IVec S1000000 32) :
    val_main_v16 (F := Ideal) x0 x1 = scaleRows x0 (asCol (val_main_v6 (F := Ideal) x1)) := by
  funext i
  obtain ⟨p, q, rfl⟩ : ∃ (p : Fin 100000) (q : Fin 64), i = ix2 p q := ⟨i 0, i 1, eq_ix2 i⟩
  rw [val_main_v16_apply, val_main_v15_apply, val_main_v14_apply]
  have e : idx_main_v14 (idx_main_v15 (ix2 p q)) = ix1 p :=
    funext fun a => Fin.ext (by match a with | ⟨0, _⟩ => rfl)
  rw [e, scaleRows_apply, asCol_apply, Ideal.mulf_def]

/-! Which entries the first layer's operations read, at the entry (p, q). -/

/-- The product's left factor at step k sits in row p, column k. -/
theorem left_first (p : Fin 100000) (q k : Fin 64) : lidx_main_v30 (ix2 p q) k = ix2 p k :=
  funext fun a => Fin.ext (by match a with | ⟨0, _⟩ => rfl | ⟨1, _⟩ => rfl)

/-- The product's right factor at step k sits in row k, column q. -/
theorem right_first (p : Fin 100000) (q k : Fin 64) : ridx_main_v30 (ix2 p q) k = ix2 k q :=
  funext fun a => Fin.ext (by match a with | ⟨0, _⟩ => rfl | ⟨1, _⟩ => rfl)

/-- The in-degree norm broadcast over the features is read at node p. -/
theorem normIn_first (p : Fin 100000) (k : Fin 64) : idx_main_v27 (idx_main_v28 (ix2 p k)) = ix1 p :=
  funext fun a => Fin.ext (by match a with | ⟨0, _⟩ => rfl)

/-- The bias broadcast over the nodes is read at feature q. -/
theorem bias_first (p : Fin 100000) (q : Fin 64) : idx_main_v31 (idx_main_v32 (ix2 p q)) = ix1 q :=
  funext fun a => Fin.ext (by match a with | ⟨0, _⟩ => rfl)

/-- The out-degree norm broadcast over the features is read at node p. -/
theorem normOut_first (p : Fin 100000) (q : Fin 64) : idx_main_v35 (idx_main_v36 (ix2 p q)) = ix1 p :=
  funext fun a => Fin.ext (by match a with | ⟨0, _⟩ => rfl)

/-- Entry (p, k) of the first layer's scaled rows: the aggregated entry times node p's in-degree norm. -/
theorem scaled_first (x0 : FVec Ideal S100000x64 .f32) (x1 x2 : IVec S1000000 32) (p : Fin 100000) (k : Fin 64) :
    val_main_v29 (F := Ideal) x0 x1 x2 (ix2 p k)
      = val_main_v26 (F := Ideal) x0 x1 x2 (ix2 p k) * val_main_v13 (F := Ideal) x2 (ix1 p) := by
  rw [val_main_v29_apply, val_main_v28_apply, val_main_v27_apply, normIn_first, Ideal.mulf_def]

/-- The first hidden layer: the aggregated rows scaled by the in-degree norm, times the weights, plus the bias,
    clamped at zero, scaled by the out-degree norm. -/
theorem stage_first (x0 : FVec Ideal S100000x64 .f32) (x1 x2 : IVec S1000000 32) (x3 : FVec Ideal S64x64 .f32)
    (x4 : FVec Ideal S64 .f32) :
    val_main_v37 (F := Ideal) x0 x1 x2 x3 x4
      = hidden (val_main_v26 (F := Ideal) x0 x1 x2) (asCol (val_main_v13 (F := Ideal) x2)) x3 (asRow x4)
          (asCol (val_main_v6 (F := Ideal) x1)) := by
  funext i
  obtain ⟨p, q, rfl⟩ : ∃ (p : Fin 100000) (q : Fin 64), i = ix2 p q := ⟨i 0, i 1, eq_ix2 i⟩
  rw [val_main_v37_apply, val_main_v34_apply, val_main_v33_apply, val_main_v30_apply, val_main_v32_apply,
    val_main_v31_apply, val_main_call0_v0_apply, val_main_call0_cst_apply, val_main_v36_apply, val_main_v35_apply]
  have hk : ∀ k : Fin 64,
      val_main_v29 (F := Ideal) x0 x1 x2 (lidx_main_v30 (ix2 p q) k) * x3 (ridx_main_v30 (ix2 p q) k)
        = (val_main_v26 (F := Ideal) x0 x1 x2 (ix2 p k) * val_main_v13 (F := Ideal) x2 (ix1 p)) * x3 (ix2 k q) :=
    fun k => by rw [left_first, right_first, scaled_first]
  rw [Finset.sum_congr rfl fun k _ => hk k, bias_first, normOut_first, hidden_apply, asCol_apply, asCol_apply,
    asRow_apply]
  generalize val_main_v26 (F := Ideal) x0 x1 x2 = a
  generalize val_main_v13 (F := Ideal) x2 = s
  generalize val_main_v6 (F := Ideal) x1 = t
  rw [Ideal.mulf_def, Ideal.maximumf_def, Ideal.addf_def, Ideal.ofBits_def, Ideal.ofBits_zero_f32]

/-! Which entries the second layer's operations read, at the entry (p, q). -/

/-- The product's left factor at step k sits in row p, column k. -/
theorem left_second (p : Fin 100000) (q k : Fin 64) : lidx_main_v51 (ix2 p q) k = ix2 p k :=
  funext fun a => Fin.ext (by match a with | ⟨0, _⟩ => rfl | ⟨1, _⟩ => rfl)

/-- The product's right factor at step k sits in row k, column q. -/
theorem right_second (p : Fin 100000) (q k : Fin 64) : ridx_main_v51 (ix2 p q) k = ix2 k q :=
  funext fun a => Fin.ext (by match a with | ⟨0, _⟩ => rfl | ⟨1, _⟩ => rfl)

/-- The in-degree norm broadcast over the features is read at node p. -/
theorem normIn_second (p : Fin 100000) (k : Fin 64) : idx_main_v48 (idx_main_v49 (ix2 p k)) = ix1 p :=
  funext fun a => Fin.ext (by match a with | ⟨0, _⟩ => rfl)

/-- The bias broadcast over the nodes is read at feature q. -/
theorem bias_second (p : Fin 100000) (q : Fin 64) : idx_main_v52 (idx_main_v53 (ix2 p q)) = ix1 q :=
  funext fun a => Fin.ext (by match a with | ⟨0, _⟩ => rfl)

/-- The out-degree norm broadcast over the features is read at node p. -/
theorem normOut_second (p : Fin 100000) (q : Fin 64) : idx_main_v56 (idx_main_v57 (ix2 p q)) = ix1 p :=
  funext fun a => Fin.ext (by match a with | ⟨0, _⟩ => rfl)

/-- Entry (p, k) of the second layer's scaled rows: the aggregated entry times node p's in-degree norm. -/
theorem scaled_second (x0 : FVec Ideal S100000x64 .f32) (x1 x2 : IVec S1000000 32) (x3 : FVec Ideal S64x64 .f32)
    (x4 : FVec Ideal S64 .f32) (p : Fin 100000) (k : Fin 64) :
    val_main_v50 (F := Ideal) x0 x1 x2 x3 x4 (ix2 p k)
      = val_main_v47 (F := Ideal) x0 x1 x2 x3 x4 (ix2 p k) * val_main_v13 (F := Ideal) x2 (ix1 p) := by
  rw [val_main_v50_apply, val_main_v49_apply, val_main_v48_apply, normIn_second, Ideal.mulf_def]

/-- The second hidden layer, of the same shape as the first, over the second aggregation. -/
theorem stage_second (x0 : FVec Ideal S100000x64 .f32) (x1 x2 : IVec S1000000 32) (x3 : FVec Ideal S64x64 .f32)
    (x4 : FVec Ideal S64 .f32) (x5 : FVec Ideal S64x64 .f32) (x6 : FVec Ideal S64 .f32) :
    val_main_v58 (F := Ideal) x0 x1 x2 x3 x4 x5 x6
      = hidden (val_main_v47 (F := Ideal) x0 x1 x2 x3 x4) (asCol (val_main_v13 (F := Ideal) x2)) x5 (asRow x6)
          (asCol (val_main_v6 (F := Ideal) x1)) := by
  funext i
  obtain ⟨p, q, rfl⟩ : ∃ (p : Fin 100000) (q : Fin 64), i = ix2 p q := ⟨i 0, i 1, eq_ix2 i⟩
  rw [val_main_v58_apply, val_main_v55_apply, val_main_v54_apply, val_main_v51_apply, val_main_v53_apply,
    val_main_v52_apply, val_main_call1_v0_apply, val_main_call1_cst_apply, val_main_v57_apply, val_main_v56_apply]
  have hk : ∀ k : Fin 64,
      val_main_v50 (F := Ideal) x0 x1 x2 x3 x4 (lidx_main_v51 (ix2 p q) k) * x5 (ridx_main_v51 (ix2 p q) k)
        = (val_main_v47 (F := Ideal) x0 x1 x2 x3 x4 (ix2 p k) * val_main_v13 (F := Ideal) x2 (ix1 p))
            * x5 (ix2 k q) :=
    fun k => by rw [left_second, right_second, scaled_second]
  rw [Finset.sum_congr rfl fun k _ => hk k, bias_second, normOut_second, hidden_apply, asCol_apply, asCol_apply,
    asRow_apply]
  generalize val_main_v47 (F := Ideal) x0 x1 x2 x3 x4 = a
  generalize val_main_v13 (F := Ideal) x2 = s
  generalize val_main_v6 (F := Ideal) x1 = t
  rw [Ideal.mulf_def, Ideal.maximumf_def, Ideal.addf_def, Ideal.ofBits_def, Ideal.ofBits_zero_f32]

/-! Which entries the last layer's operations read, at the entry (p, q). -/

/-- The product's left factor at step k sits in row p, column k. -/
theorem left_last (p : Fin 100000) (q k : Fin 64) : lidx_main_v72 (ix2 p q) k = ix2 p k :=
  funext fun a => Fin.ext (by match a with | ⟨0, _⟩ => rfl | ⟨1, _⟩ => rfl)

/-- The product's right factor at step k sits in row k, column q. -/
theorem right_last (p : Fin 100000) (q k : Fin 64) : ridx_main_v72 (ix2 p q) k = ix2 k q :=
  funext fun a => Fin.ext (by match a with | ⟨0, _⟩ => rfl | ⟨1, _⟩ => rfl)

/-- The in-degree norm broadcast over the features is read at node p. -/
theorem normIn_last (p : Fin 100000) (k : Fin 64) : idx_main_v69 (idx_main_v70 (ix2 p k)) = ix1 p :=
  funext fun a => Fin.ext (by match a with | ⟨0, _⟩ => rfl)

/-- The bias broadcast over the nodes is read at feature q. -/
theorem bias_last (p : Fin 100000) (q : Fin 64) : idx_main_v73 (idx_main_v74 (ix2 p q)) = ix1 q :=
  funext fun a => Fin.ext (by match a with | ⟨0, _⟩ => rfl)

/-- Entry (p, k) of the last layer's scaled rows: the aggregated entry times node p's in-degree norm. -/
theorem scaled_last (x0 : FVec Ideal S100000x64 .f32) (x1 x2 : IVec S1000000 32) (x3 : FVec Ideal S64x64 .f32)
    (x4 : FVec Ideal S64 .f32) (x5 : FVec Ideal S64x64 .f32) (x6 : FVec Ideal S64 .f32) (p : Fin 100000) (k : Fin 64) :
    val_main_v71 (F := Ideal) x0 x1 x2 x3 x4 x5 x6 (ix2 p k)
      = val_main_v68 (F := Ideal) x0 x1 x2 x3 x4 x5 x6 (ix2 p k) * val_main_v13 (F := Ideal) x2 (ix1 p) := by
  rw [val_main_v71_apply, val_main_v70_apply, val_main_v69_apply, normIn_last, Ideal.mulf_def]

/-- The last layer is the affine stage alone, over the third aggregation: no clamp and no further scaling. -/
theorem stage_last (x0 : FVec Ideal S100000x64 .f32) (x1 x2 : IVec S1000000 32) (x3 : FVec Ideal S64x64 .f32)
    (x4 : FVec Ideal S64 .f32) (x5 : FVec Ideal S64x64 .f32) (x6 : FVec Ideal S64 .f32)
    (x7 : FVec Ideal S64x64 .f32) (x8 : FVec Ideal S64 .f32) :
    val_main_v75 (F := Ideal) x0 x1 x2 x3 x4 x5 x6 x7 x8
      = affine (val_main_v68 (F := Ideal) x0 x1 x2 x3 x4 x5 x6) (asCol (val_main_v13 (F := Ideal) x2)) x7
          (asRow x8) := by
  funext i
  obtain ⟨p, q, rfl⟩ : ∃ (p : Fin 100000) (q : Fin 64), i = ix2 p q := ⟨i 0, i 1, eq_ix2 i⟩
  rw [val_main_v75_apply, val_main_v72_apply, val_main_v74_apply, val_main_v73_apply]
  have hk : ∀ k : Fin 64,
      val_main_v71 (F := Ideal) x0 x1 x2 x3 x4 x5 x6 (lidx_main_v72 (ix2 p q) k) * x7 (ridx_main_v72 (ix2 p q) k)
        = (val_main_v68 (F := Ideal) x0 x1 x2 x3 x4 x5 x6 (ix2 p k) * val_main_v13 (F := Ideal) x2 (ix1 p))
            * x7 (ix2 k q) :=
    fun k => by rw [left_last, right_last, scaled_last]
  rw [Finset.sum_congr rfl fun k _ => hk k, bias_last, affine_apply, asCol_apply, asRow_apply]
  generalize val_main_v68 (F := Ideal) x0 x1 x2 x3 x4 x5 x6 = a
  generalize val_main_v13 (F := Ideal) x2 = s
  rw [Ideal.addf_def]

/-! ### The whole reference

Reading the stages from the result back to the input, each dense stage takes the aggregation before it, and each
aggregation takes the dense stage before it; the two norms are the same two terms throughout. -/

/-- The reference program's result is the three layers composed over its own aggregation step and degree norms. -/
theorem value (m : (ℓ : Loc nD τ sig) → Buf (Elt Ideal) ℓ) (c : Dev nD) :
    Cert.ReferenceIdeal.Value.res_main_v75 (F := Ideal) m c
      = network (gatherSum (m ((c.tc : Thread nD τ).loc main_arg1)) (m ((c.tc : Thread nD τ).loc main_arg2)))
          (degNorm (m ((c.tc : Thread nD τ).loc main_arg1))) (degNorm (m ((c.tc : Thread nD τ).loc main_arg2)))
          (m ((c.tc : Thread nD τ).loc main_arg0))
          (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg7)) (m ((c.tc : Thread nD τ).loc main_arg8)) := by
  rw [val_main_v75_eq, stage_last, agg_third, stage_second, agg_second, stage_first, agg_first, stage_input,
    norm_src, norm_dst]
  unfold network
  with_reducible rfl

end Cert.GraphConv.Ref

end
-- ==== Proof.lean ====
/-
  The certificate of a three-layer, symmetrically normalised graph convolution on 100000 nodes with 64 features over
  1000000 edges: the kernel program (four launches among host operations) against its plain reference, over the
  extended reals.

  The mathematics. With `nout` and `nin` the out- and in-degree norms (edge counts per node, at least one, to the
  power minus one half) and `agg` the aggregation along the edges (gather each edge's source row, sum the rows
  arriving at each destination), one layer is
      h  ↦  ((agg (h · nout)) · nin) W + b,
  with a clamp at zero between layers. The reference computes the layers in this order. The kernel program moves each
  layer's leading scaling by `nout` into the end of the previous launch: its first launch is the row scaling
  `x · nout`, its two middle launches are  a ↦ max ((a · nin) W + b, 0) · nout  and its last is  a ↦ (a · nin) W + b,
  the aggregations running on the host between launches. Composed, both programs are the same nest of the same
  operations (`Cert.GraphConv.network`, Proof/Layers.lean), so no law of arithmetic on the extended reals is used —
  only each operation read at an index, and the finiteness of the inputs is never opened. The changes of float
  format on the way into the matrix unit are the identity on extended reals.

  The modules. Proof/Layers.lean states the stages as functions of whole arrays. Proof/RegionScale.lean,
  RegionHidden1.lean, RegionHidden2.lean and RegionLast.lean read each launch's output array as its stage of the
  launch's input arrays (each grid point writes its block of 5000 rows; the blocks tile the array).
  Proof/KernelRun.lean is the kernel program's run with the result array named at the run's last boundary;
  Proof/Boundaries.lean reads that boundary back through the host stretches and the launches to the launch memory.
  Proof/RefValue.lean reads the reference's run one operation at a time into the same composition. Below, the
  aggregation and the norms of the two programs are identified (each program spells them over its own shape records,
  which hold the same numbers) and the claims are assembled.
-/
import proofs.«418122_j7739531067740_3_alg».proof.Defs
import proofs.«418122_j7739531067740_3_alg».proof.Proof.Gen.Kernel
import proofs.«418122_j7739531067740_3_alg».proof.Proof.Gen.Kernel.Skeleton
import proofs.«418122_j7739531067740_3_alg».proof.Proof.Gen.Kernel.Launch
import proofs.«418122_j7739531067740_3_alg».proof.Proof.Gen.Kernel.Points
import proofs.«418122_j7739531067740_3_alg».proof.Proof.Gen.Kernel.Frame
import proofs.«418122_j7739531067740_3_alg».proof.Proof.Gen.KernelIdeal
import proofs.«418122_j7739531067740_3_alg».proof.Proof.Gen.KernelIdeal.Skeleton
import proofs.«418122_j7739531067740_3_alg».proof.Proof.Gen.KernelIdeal.Launch
import proofs.«418122_j7739531067740_3_alg».proof.Proof.Gen.KernelIdeal.Points
import proofs.«418122_j7739531067740_3_alg».proof.Proof.Gen.KernelIdeal.Frame
import proofs.«418122_j7739531067740_3_alg».proof.Proof.Gen.ReferenceIdeal
import proofs.«418122_j7739531067740_3_alg».proof.Proof.Gen.Pre_finite_inputs
import proofs.«418122_j7739531067740_3_alg».proof.Proof.Gen.ReferenceIdeal.Run
import proofs.«418122_j7739531067740_3_alg».proof.Proof.Gen.ReferenceIdeal.Read
import proofs.«418122_j7739531067740_3_alg».proof.Proof.Layers
import proofs.«418122_j7739531067740_3_alg».proof.Proof.KernelRun
import proofs.«418122_j7739531067740_3_alg».proof.Proof.Boundaries
import proofs.«418122_j7739531067740_3_alg».proof.Proof.RegionScale
import proofs.«418122_j7739531067740_3_alg».proof.Proof.RegionHidden1
import proofs.«418122_j7739531067740_3_alg».proof.Proof.RegionHidden2
import proofs.«418122_j7739531067740_3_alg».proof.Proof.RegionLast
import proofs.«418122_j7739531067740_3_alg».proof.Proof.RefValue
import Idealize.ShloMosaic.Adequacy
import Idealize.ShloMosaic.Init

noncomputable section

namespace Cert.Proof

open Idealize.ShloMosaic Idealize.SL.Sem Cert.GraphConv

/-- The aggregation step and the degree norm are spelt once over each program's own shape records; the records hold
    the same numbers, so the two spellings are one function. -/
theorem gatherSum_eq (src dst : IVec Cert.KernelIdeal.S1000000 32) : Ref.gatherSum src dst = Ker.gatherSum src dst := rfl
theorem degNorm_eq (idx : IVec Cert.KernelIdeal.S1000000 32) : Ref.degNorm idx = Ker.degNorm idx := rfl

theorem frame_kernel : Cert.frame_Kernel := fun m ρ _ => Cert.Kernel.Gen.frame m ρ
theorem frame_kernelIdeal : Cert.frame_KernelIdeal := fun m ρ _ => Cert.KernelIdeal.Gen.frame m ρ
/-- The reference has no launch: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the three layers composed over the aggregation step and the two degree norms of the
    arguments: the kernel program by its run through the four launches, the reference by its run read one operation at
    a time; the arguments agree, so the results do. -/
theorem algebraic : Cert.algebraic_KernelIdeal_ReferenceIdeal := by
  intro m ρ m' ρ' _ hagree
  refine ⟨_, (θ_run Cert.KernelIdeal.defs _ _).mono
    (fun r h c => ⟨(h c).1.trans (Ker.kernel_value m ρ c Ker.region0_value Ker.region1_value Ker.region2_value Ker.region3_value), (h c).2⟩)
    (Cert.KernelIdeal.RunResult.run_result (F := Ideal) m ρ), ?_⟩
  refine (θ_run Cert.ReferenceIdeal.defs _ _).mono (fun r h c => ⟨(h c).1.trans ?_, (h c).2⟩)
    (Cert.ReferenceIdeal.Value.run (F := Ideal) m' ρ')
  rw [Ref.value m' c, (hagree c).1, (hagree c).2.1, (hagree c).2.2.1, (hagree c).2.2.2.1, (hagree c).2.2.2.2.1,
    (hagree c).2.2.2.2.2.1, (hagree c).2.2.2.2.2.2.1, (hagree c).2.2.2.2.2.2.2.1, (hagree c).2.2.2.2.2.2.2.2]
  simp only [gatherSum_eq, degNorm_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
